-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S2 : Shape := ⟨1, ![2]⟩
abbrev S_ : Shape := ⟨0, ![]⟩
abbrev S1x256x256 : Shape := ⟨3, ![1, 256, 256]⟩
abbrev S1 : Shape := ⟨1, ![1]⟩
abbrev S128x256 : Shape := ⟨2, ![128, 256]⟩
abbrev S1x128x256 : Shape := ⟨3, ![1, 128, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_cond3 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_11 : BitVec 32 := 0#32
  let v18 : BitVec 1 := Scalar.cmpi .eq v5 c0_i32_11
  let v19 : BitVec 32 := Scalar.extui v18
  let c0_i32_12 : BitVec 32 := 0#32
  let v20 : BitVec 1 := Scalar.cmpi .ne v19 c0_i32_12
  v20

def k0_dev2 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v24 : BitVec 32 := Scalar.muli v2 c2_i32_18
  let v25 : BitVec 32 := Scalar.addi c0_i32_19 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v26 : BitVec 32 := Scalar.muli v6 c1_i32_20
  let v27 : BitVec 32 := Scalar.addi v25 v26
  v27.toNat
def k0_dev3 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v35 : BitVec 32 := Scalar.muli v2 c2_i32_27
  let v36 : BitVec 32 := Scalar.addi c0_i32_28 v35
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v37 : BitVec 32 := Scalar.muli v6 c1_i32_29
  let v38 : BitVec 32 := Scalar.addi v36 v37
  v38.toNat
def k0_cond4 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v21 : BitVec 1 := Scalar.cmpi .eq v5 c1_i32_13
  let v22 : BitVec 32 := Scalar.extui v21
  let c0_i32_14 : BitVec 32 := 0#32
  let v23 : BitVec 1 := Scalar.cmpi .ne v22 c0_i32_14
  v23

def k0_dev4 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v24 : BitVec 32 := Scalar.muli v2 c2_i32_18
  let v25 : BitVec 32 := Scalar.addi c0_i32_19 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v26 : BitVec 32 := Scalar.muli v6 c1_i32_20
  let v27 : BitVec 32 := Scalar.addi v25 v26
  v27.toNat
def k0_dev5 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v35 : BitVec 32 := Scalar.muli v2 c2_i32_28
  let v36 : BitVec 32 := Scalar.addi c0_i32_29 v35
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_30 : BitVec 32 := 1#32
  let v37 : BitVec 32 := Scalar.muli v6 c1_i32_30
  let v38 : BitVec 32 := Scalar.addi v36 v37
  v38.toNat
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1x256x512_S1x256x256_0_0_0 : ∀ a, (![0, 0, 0] : Fin 3 → Nat) a + S1x256x256.size a ≤ S1x256x512.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  inb_S1x256x512_S1x256x256_0_0_256 : ∀ a, (![0, 0, 256] : Fin 3 → Nat) a + S1x256x256.size a ≤ S1x256x512.size a
  inb_S2_S1_0 : ∀ a, (![0] : Fin 1 → Nat) a + S1.size a ≤ S2.size a
  squeezes_S1_S_ : S1.Squeezes S_
  inb_S256x256_S128x256_0_0 : ∀ a, (![0, 0] : Fin 2 → Nat) a + S128x256.size a ≤ S256x256.size a
  inb_S1x256x512_S1x128x256_0_0_256 : ∀ a, (![0, 0, 256] : Fin 3 → Nat) a + S1x128x256.size a ≤ S1x256x512.size a
  squeezes_S1x128x256_S128x256 : S1x128x256.Squeezes S128x256
  inb_S2_S1_1 : ∀ a, (![1] : Fin 1 → Nat) a + S1.size a ≤ S2.size a
  inb_S256x256_S128x256_128_0 : ∀ a, (![128, 0] : Fin 2 → Nat) a + S128x256.size a ≤ S256x256.size a
  inb_S1x256x512_S1x128x256_0_128_256 : ∀ a, (![0, 128, 256] : Fin 3 → Nat) a + S1x128x256.size a ≤ S1x256x512.size a
  h_S128x256 : 0 < S128x256.numel
  shapeCasts_S128x256_S128x256 : S128x256.ShapeCasts S128x256
  inb_S1x256x512_S1x128x256_0_0_0 : ∀ a, (![0, 0, 0] : Fin 3 → Nat) a + S1x128x256.size a ≤ S1x256x512.size a
  inb_S1x256x512_S1x128x256_0_128_0 : ∀ a, (![0, 128, 0] : Fin 3 → Nat) a + S1x128x256.size a ≤ S1x256x512.size a
  hcc0_scratch1 : 2 + S2.numel ≤ 6
  hcc0_scratch2 : 4 + S2.numel ≤ 6
  k0_dev1_lt : ∀ d0 : Dev nD, (k0_dev1 d0) < nD
  k0_dev2_lt : ∀ d0 : Dev nD, ∀ (k0_h3 : k0_cond3 d0 = 1#1), (k0_dev2 d0) < nD
  k0_dev3_lt : ∀ d0 : Dev nD, ∀ (k0_h3 : k0_cond3 d0 = 1#1), (k0_dev3 d0) < nD
  k0_dev4_lt : ∀ d0 : Dev nD, ∀ (k0_h4 : k0_cond4 d0 = 1#1), (k0_dev4 d0) < nD
  k0_dev5_lt : ∀ d0 : Dev nD, ∀ (k0_h4 : k0_cond4 d0 = 1#1), (k0_dev5 d0) < nD
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel

variable [Facts₀]

class Facts : Prop extends Facts₀ where

variable [Facts]
-- ==== Proof.Spec.lean ====
/-
  The two-by-two mesh of this reduce-scatter, and the shape of its result, stated apart from any program.

  Device `c` sits at mesh position `(c / 2, c % 2)`. Its partner in the exchange, `peer c`, keeps the first coordinate
  and flips the second: `peer c = 2 * (c / 2) + 1 - c % 2`, an involution. Device `c` keeps the column half
  `c % 2` (`half c`) of the sum: element `(r, l)` of its result is the sum of element `(0, r, 256 * (c % 2) + l)`
  of its own block and of its partner's block (`colIdx` is that index).
-/
import Idealize.ShloMosaic.Lib.ValueIdx

namespace Cert.RS

open Idealize.ShloMosaic Idealize.ShloMosaic.ValueIdx

/-- The partner of device `c` on the second mesh axis. -/
def peer (c : Fin 4) : Fin 4 := ⟨2 * (c.val / 2) + 1 - c.val % 2, by omega⟩

theorem peer_peer (c : Fin 4) : peer (peer c) = c := by revert c; decide
theorem peer_ne (c : Fin 4) : peer c ≠ c := by revert c; decide

/-- Which column half of the sum device `c` keeps: its second mesh coordinate. -/
def half (c : Fin 4) : Fin 2 := ⟨c.val % 2, Nat.mod_lt _ (by decide)⟩

theorem half_peer (c : Fin 4) : (half (peer c)).val = 1 - (half c).val := by revert c; decide

/-- Element `(r, l)` of a device's result reads its block's element `(0, r, 256 * k + l)`, `k` the half it keeps. -/
def colIdx (k : Fin 2) (i : (⟨2, ![256, 256]⟩ : Shape).Idx) : (⟨3, ![1, 256, 512]⟩ : Shape).Idx :=
  ix3 (⟨0, by decide⟩ : Fin 1) (i 0) (⟨256 * k.val + (i 1).val, by have := idx2_lt1 i; have := k.isLt; omega⟩ : Fin 512)

end Cert.RS
-- ==== Proof.RefSide.lean ====
/-
  The reference's side of the claim: on one device it sums the whole array `x : [2, 256, 512]` over its first axis.
  Device `c` of the mesh holds block `c % 2` of `x` along that axis, and must end with column half `c % 2` of the
  sum. `bridge`: the sum of the device's own block and its partner's block, read at the columns of its half, IS that
  half of the reference's sum (the two blocks are the two slices of `x`, in one order or the other, and addition
  of extended reals commutes; the reference's initial value is zero).
-/
import proofs.«900307_g7700000000000308_dist_rs_v7x_xy2x2_y_m256_n256_f32_1_alg».proof.Defs
import proofs.«900307_g7700000000000308_dist_rs_v7x_xy2x2_y_m256_n256_f32_1_alg».proof.Proof.Gen.ReferenceIdeal.Run
import proofs.«900307_g7700000000000308_dist_rs_v7x_xy2x2_y_m256_n256_f32_1_alg».proof.Proof.Gen.ReferenceIdeal.Read
import proofs.«900307_g7700000000000308_dist_rs_v7x_xy2x2_y_m256_n256_f32_1_alg».proof.Proof.Gen.Pre_finite_inputs_ReferenceIdeal
import proofs.«900307_g7700000000000308_dist_rs_v7x_xy2x2_y_m256_n256_f32_1_alg».proof.Proof.Spec
import Idealize.ShloMosaic.Lib.Layout

noncomputable section

namespace Cert.RS

open Idealize.ShloMosaic Idealize.ShloMosaic.TcCoe Idealize.SL.Sem Idealize.ShloMosaic.ValueIdx

/-- On the two-by-two mesh a dimension cut along the second axis gives device `c` block `c % 2`. -/
private theorem meshLin_second (c : Nat) : Layout.meshLin [2, 2] c [1] = c % 2 := by
  simp [Layout.meshLin, Layout.meshCoord, Layout.cutSize]

/-- Device `c`'s own block holds slice `c % 2` of `x`: read at row `r` and column `256 * (c % 2) + l`, it is the
    reference's operand for term `c % 2` of the sum at the device's result index `(r, 256 * (c % 2) + l)`. -/
private theorem own_idx
    (h : Layout.TilesN ⟨3, ![1, 256, 512]⟩ ⟨3, ![2, 256, 512]⟩ (fun b => Layout.cutSize [2, 2] (![[1], [], []] b)))
    (h' : Layout.TilesN ⟨2, ![256, 256]⟩ ⟨2, ![256, 512]⟩ (fun b => Layout.cutSize [2, 2] (![[], [1]] b)))
    (hb : ∀ b, ∀ a ∈ (![[1], [], []] : Fin 3 → List Nat) b, 0 < [2, 2].getD a 0)
    (hb' : ∀ b, ∀ a ∈ (![[], [1]] : Fin 2 → List Nat) b, 0 < [2, 2].getD a 0)
    (c : Fin 4) (i : (⟨2, ![256, 256]⟩ : Shape).Idx) :
    h.idx (Layout.meshBlock [2, 2] ![[1], [], []] c hb) (colIdx (half c) i)
      = Cert.ReferenceIdeal.Read.idx_main_v0 (h'.idx (Layout.meshBlock [2, 2] ![[], [1]] c hb') i) (half c) := by
  funext a
  apply Fin.ext
  match a with
  | ⟨0, _⟩ =>
    show Layout.meshLin [2, 2] c.val [1] * 1 + 0 = c.val % 2
    rw [meshLin_second, Nat.mul_one, Nat.add_zero]
  | ⟨1, _⟩ => rfl
  | ⟨2, _⟩ =>
    show Layout.meshLin [2, 2] c.val [] * 512 + (256 * (c.val % 2) + (i 1).val)
      = Layout.meshLin [2, 2] c.val [1] * 256 + (i 1).val
    rw [meshLin_second]
    show 0 * 512 + (256 * (c.val % 2) + (i 1).val) = c.val % 2 * 256 + (i 1).val
    omega

/-- The partner's block holds the other slice, `(peer c) % 2`, of `x`: read at the same row and column it is the
    reference's operand for the other term of the sum at the same result index. -/
private theorem peer_idx
    (h : Layout.TilesN ⟨3, ![1, 256, 512]⟩ ⟨3, ![2, 256, 512]⟩ (fun b => Layout.cutSize [2, 2] (![[1], [], []] b)))
    (h' : Layout.TilesN ⟨2, ![256, 256]⟩ ⟨2, ![256, 512]⟩ (fun b => Layout.cutSize [2, 2] (![[], [1]] b)))
    (hb : ∀ b, ∀ a ∈ (![[1], [], []] : Fin 3 → List Nat) b, 0 < [2, 2].getD a 0)
    (hb' : ∀ b, ∀ a ∈ (![[], [1]] : Fin 2 → List Nat) b, 0 < [2, 2].getD a 0)
    (c : Fin 4) (i : (⟨2, ![256, 256]⟩ : Shape).Idx) :
    h.idx (Layout.meshBlock [2, 2] ![[1], [], []] (peer c) hb) (colIdx (half c) i)
      = Cert.ReferenceIdeal.Read.idx_main_v0 (h'.idx (Layout.meshBlock [2, 2] ![[], [1]] c hb') i) (half (peer c)) := by
  funext a
  apply Fin.ext
  match a with
  | ⟨0, _⟩ =>
    show Layout.meshLin [2, 2] (peer c).val [1] * 1 + 0 = (peer c).val % 2
    rw [meshLin_second, Nat.mul_one, Nat.add_zero]
  | ⟨1, _⟩ => rfl
  | ⟨2, _⟩ =>
    show Layout.meshLin [2, 2] (peer c).val [] * 512 + (256 * (c.val % 2) + (i 1).val)
      = Layout.meshLin [2, 2] c.val [1] * 256 + (i 1).val
    rw [meshLin_second]
    show 0 * 512 + (256 * (c.val % 2) + (i 1).val) = c.val % 2 * 256 + (i 1).val
    omega

/-- Column half `c % 2` of the reference's sum is the sum of device `c`'s block and its partner's block at those columns. -/
theorem bridge (X : (⟨Cert.ReferenceIdeal.S2x256x512, .f32⟩ : BufTy).Contents (Elt Ideal)) (c : Fin 4) :
    (fun i : (⟨2, ![256, 256]⟩ : Shape).Idx =>
        (show EReal from (Layout.blockN ⟨3, ![1, 256, 512]⟩ ⟨3, ![2, 256, 512]⟩ (Layout.meshBlock [2, 2] ![[1], [], []] c) X) (colIdx (half c) i))
      + (show EReal from (Layout.blockN ⟨3, ![1, 256, 512]⟩ ⟨3, ![2, 256, 512]⟩ (Layout.meshBlock [2, 2] ![[1], [], []] (peer c)) X) (colIdx (half c) i)))
    = Layout.blockN ⟨2, ![256, 256]⟩ ⟨2, ![256, 512]⟩ (Layout.meshBlock [2, 2] ![[], [1]] c)
        (Cert.ReferenceIdeal.Read.val_main_v0 (F := Ideal) X) := by
  funext i
  simp only [Layout.blockN_apply]
  -- the reference's value at the device's result index: its initial value plus the two slices of `x` there
  rw [Cert.ReferenceIdeal.Read.val_main_v0_apply, Fin.sum_univ_two, Cert.ReferenceIdeal.Read.val_main_cst_apply]
  show _ = Ideal.ofBits .f32 0x00000000#32 + _
  rw [Ideal.ofBits_zero_f32, zero_add, own_idx _ (by decide) _ (by decide), peer_idx _ (by decide) _ (by decide)]
  -- `c % 2 = 0`: own slice first, partner's second, as in the reference's sum; `c % 2 = 1`: the other order
  fin_cases c
  · exact rfl
  · exact add_comm (G := EReal) _ _
  · exact rfl
  · exact add_comm (G := EReal) _ _

/-- The reference's run: its result ends at the sum over the first axis of its argument, which ends unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = Cert.ReferenceIdeal.Read.val_main_v0 (F := Ideal) (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans (Cert.ReferenceIdeal.Read.val_main_v0_eq (F := Ideal) _), (h 0).2⟩)
    (Cert.ReferenceIdeal.Value.run (F := Ideal) m' g')

/-- The reference runs to the end and leaves its argument as it was. -/
theorem frame_ref : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2)
    (Cert.ReferenceIdeal.Value.run (F := Ideal) m ρ)

/-- info: 'Cert.RS.bridge' depends on axioms: [propext, Classical.choice, Quot.sound] -/
#guard_msgs in #print axioms bridge

end Cert.RS

end
-- ==== Proof.Sched.lean ====
/-
  The exchange of this reduce-scatter, as a protocol between the four devices of the two-by-two mesh.

  Device `c` holds a block `x_c : [1, 256, 512]` and keeps the column half `half c` of the sum over the two blocks of its
  mesh column pair `{c, peer c}`. It first copies its own columns of that half into its result, then tells its partner
  (one unit on the partner's barrier semaphore) that its landing buffer exists, waits for the same word from the
  partner, sends the partner the OTHER column half of its block in two chunks of 128 rows (chunk `k` completes on send
  semaphore `k` here and on receive semaphore `k` there), and after chunk `k`'s two waits adds the 128 landed rows into
  its result.

  Cells, five per device: the barrier cell (one duty, paid by the partner's signal, which hands over the partner's
  landing buffer as its two row halves and the fact that the partner's receive cells are at round 0); send cell `k`
  (one duty, the chunk's source rows of the device's own block, handed back when the copy has read them); receive
  cell `k` (one duty, paid by the partner's copy: the landing buffer's rows `128 k ..` holding the partner's chunk).
  Every cell has one round.
-/
import proofs.«900307_g7700000000000308_dist_rs_v7x_xy2x2_y_m256_n256_f32_1_alg».proof.Proof.Gen.KernelIdeal
import proofs.«900307_g7700000000000308_dist_rs_v7x_xy2x2_y_m256_n256_f32_1_alg».proof.Proof.Gen.KernelIdeal.Skeleton
import proofs.«900307_g7700000000000308_dist_rs_v7x_xy2x2_y_m256_n256_f32_1_alg».proof.Proof.Gen.KernelIdeal.Launch
import proofs.«900307_g7700000000000308_dist_rs_v7x_xy2x2_y_m256_n256_f32_1_alg».proof.Proof.Gen.KernelIdeal.Points
import proofs.«900307_g7700000000000308_dist_rs_v7x_xy2x2_y_m256_n256_f32_1_alg».proof.Proof.Gen.KernelIdeal.Frame
import proofs.«900307_g7700000000000308_dist_rs_v7x_xy2x2_y_m256_n256_f32_1_alg».proof.Proof.Spec
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Xchg

open Cert.KernelIdeal Cert.KernelIdeal.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the exchange's own -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## The partner, as the kernel computes it -/

theorem dev1_eq (c : Dev nD) : (⟨k0_dev1 c, k0_dev1_lt c⟩ : Dev nD) = peer c := Fin.ext (k0_dev1_eq c)
theorem dev2_eq (c : Dev nD) (h) : (⟨k0_dev2 c, k0_dev2_lt c h⟩ : Dev nD) = peer c := Fin.ext (k0_dev2_eq c)
theorem dev3_eq (c : Dev nD) (h) : (⟨k0_dev3 c, k0_dev3_lt c h⟩ : Dev nD) = peer c := Fin.ext (k0_dev3_eq c)
theorem dev4_eq (c : Dev nD) (h) : (⟨k0_dev4 c, k0_dev4_lt c h⟩ : Dev nD) = peer c := Fin.ext (k0_dev4_eq c)
theorem dev5_eq (c : Dev nD) (h) : (⟨k0_dev5 c, k0_dev5_lt c h⟩ : Dev nD) = peer c := Fin.ext (k0_dev5_eq c)

def pairing : Dev nD ≃ Dev nD := ⟨peer, peer, peer_peer, peer_peer⟩

/-! ## The four branch conditions, by the half the device keeps -/

theorem cond1_even (c : Dev nD) (h : c.val % 2 = 0) :
    Scalar.cmpi .ne (Scalar.extui (Scalar.cmpi .eq (Scalar.remsi (Scalar.divsi (Dev.word c) 1#32) 2#32) 0#32) : BitVec 32) 0#32 = 1#1 := by
  revert c; decide
theorem cond2_even (c : Dev nD) (h : c.val % 2 = 0) :
    ¬ Scalar.cmpi .ne (Scalar.extui (Scalar.cmpi .eq (Scalar.remsi (Scalar.divsi (Dev.word c) 1#32) 2#32) 1#32) : BitVec 32) 0#32 = 1#1 := by
  revert c; decide
theorem cond3_even (c : Dev nD) (h : c.val % 2 = 0) : k0_cond3 c = 1#1 := by revert c; decide
theorem cond4_even (c : Dev nD) (h : c.val % 2 = 0) : ¬ k0_cond4 c = 1#1 := by revert c; decide
theorem cond1_odd (c : Dev nD) (h : c.val % 2 = 1) :
    ¬ Scalar.cmpi .ne (Scalar.extui (Scalar.cmpi .eq (Scalar.remsi (Scalar.divsi (Dev.word c) 1#32) 2#32) 0#32) : BitVec 32) 0#32 = 1#1 := by
  revert c; decide
theorem cond2_odd (c : Dev nD) (h : c.val % 2 = 1) :
    Scalar.cmpi .ne (Scalar.extui (Scalar.cmpi .eq (Scalar.remsi (Scalar.divsi (Dev.word c) 1#32) 2#32) 1#32) : BitVec 32) 0#32 = 1#1 := by
  revert c; decide
theorem cond3_odd (c : Dev nD) (h : c.val % 2 = 1) : ¬ k0_cond3 c = 1#1 := by revert c; decide
theorem cond4_odd (c : Dev nD) (h : c.val % 2 = 1) : k0_cond4 c = 1#1 := by revert c; decide

/-! ## The memrefs and cells -/

abbrev xM : Memref sig .tc .vmem S1x256x512 .f32 := Memref.whole cc0_stg0_0
abbrev oM : Memref sig .tc .vmem S256x256 .f32 := Memref.whole cc0_stg1_0
abbrev rM : Memref sig .tc .vmem S256x256 .f32 := Memref.whole cc0_scratch0

theorem src_inb (k h : Fin 2) : ∀ a, (![0, 128 * k.val, 256 * h.val] : Fin 3 → Nat) a + S1x128x256.size a ≤ S1x256x512.size a := by
  revert k h; decide
theorem dst_inb (k : Fin 2) : ∀ a, (![128 * k.val, 0] : Fin 2 → Nat) a + S128x256.size a ≤ S256x256.size a := by
  revert k; decide

/-- Chunk `k`'s source: rows `128 k ..` of the block, at the columns of half `h` (the RECEIVER's half). -/
abbrev srcM (k h : Fin 2) : Memref sig .tc .vmem S128x256 .f32 :=
  (xM.slice (Rect.unit (s := S1x256x512) ![0, 128 * k.val, 256 * h.val] S1x128x256.size (src_inb k h)) (fun _ => rfl)).squeeze S128x256 squeezes_S1x128x256_S128x256

/-- Chunk `k`'s destination: rows `128 k ..` of the landing buffer. -/
abbrev dstM (k : Fin 2) : Memref sig .tc .vmem S128x256 .f32 :=
  rM.slice (Rect.unit (s := S256x256) ![128 * k.val, 0] S128x256.size (dst_inb k)) (fun _ => rfl)

abbrev barS : Sem sig := (SemArray.scalar (sig.barrier 0 rfl) : Sems sig S_).sem
abbrev sS : Fin 2 → DmaSem sig
  | 0 => ((cc0_scratch1.slice (Rect.unit (s := S2) ![0] S1.size inb_S2_S1_0)).squeeze S_ squeezes_S1_S_).sem
  | 1 => ((cc0_scratch1.slice (Rect.unit (s := S2) ![1] S1.size inb_S2_S1_1)).squeeze S_ squeezes_S1_S_).sem
abbrev rS : Fin 2 → DmaSem sig
  | 0 => ((cc0_scratch2.slice (Rect.unit (s := S2) ![0] S1.size inb_S2_S1_0)).squeeze S_ squeezes_S1_S_).sem
  | 1 => ((cc0_scratch2.slice (Rect.unit (s := S2) ![1] S1.size inb_S2_S1_1)).squeeze S_ squeezes_S1_S_).sem

abbrev barCell (c : Dev nD) : GSem nD τ sig := ((c : Thread nD τ), .reg barS)
abbrev sendCell (k : Fin 2) (c : Dev nD) : GSem nD τ sig := ((c : Thread nD τ), .dma (sS k))
abbrev recvCell (k : Fin 2) (c : Dev nD) : GSem nD τ sig := ((c : Thread nD τ), .dma (rS k))

/-- The kernel's own (scoped) semaphores, as the launch indexes them; -/
abbrev osem : Fin 4 → SemLoc sig := fun | 0 => .dma (sS 0) | 1 => .dma (sS 1) | 2 => .dma (rS 0) | 3 => .dma (rS 1)
/-- all five of the exchange's, as this proof indexes them: barrier, the two send, the two receive. -/
abbrev csem : Fin 5 → SemLoc sig := fun | 0 => .reg barS | 1 => .dma (sS 0) | 2 => .dma (sS 1) | 3 => .dma (rS 0) | 4 => .dma (rS 1)
abbrev kcell (ck : Dev nD × Fin 5) : GSem nD τ sig := ((ck.1 : Thread nD τ), csem ck.2)

/-- A chunk's credit. -/
abbrev N : ℕ := ((dstM 0).view).dmaCredit
theorem N_pos : 0 < N := View.dmaCredit_pos _ (by decide)

/-! ## Contents -/

/-- Device `c`'s block as staged. -/
def xstg (c : Dev nD) : (cc0_stg0_0 : Ref sig .tc).ty.Contents (Elt F) :=
  (win0_0.blk t0_0).view.read (Elt F) (m ((c : Thread nD τ).loc main_arg0))

/-- Chunk `k` as device `d` sends it: rows `128 k ..` of its block at the columns of its partner's half. -/
def sent (k : Fin 2) (d : Dev nD) : S128x256.Idx → Elt F .f32 := (srcM k (half (peer d))).view.read (Elt F) (xstg m d)

/-- The landing buffer of device `c` once chunk `k` of its partner has landed, on the chunk's rows (elsewhere unread). -/
def landed (k : Fin 2) (c : Dev nD) : Buf (Elt F) ((rM : Memref sig .tc .vmem S256x256 .f32).view.loc (c : Thread nD τ)) :=
  (dstM k).view.write (Elt F) (View.junk _) (sent m k (peer c)) Finset.univ

def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f
def rowPts (k : Fin 2) (c : Dev nD) (f : Buf (Elt F) ((dstM k).view.loc (c : Thread nD τ))) : sProp 𝕄 :=
  (dstM k).view.loc (c : Thread nD τ) ↦[(dstM k).view.set]{fullShare} f
def srcPts (k : Fin 2) (c : Dev nD) : sProp 𝕄 :=
  (srcM k (half (peer c))).view.loc (c : Thread nD τ) ↦[(srcM k (half (peer c))).view.set]{fullShare} xstg m c
def xPts (c : Dev nD) : sProp 𝕄 :=
  (xM : Memref sig .tc .vmem S1x256x512 .f32).view.loc (c : Thread nD τ) ↦[(xM : Memref sig .tc .vmem S1x256x512 .f32).view.set]{fullShare} xstg m c

omit [FloatOps F] in
instance scrPts_storable (c : Dev nD) (f) : BI.Storable (upEmb : UEmb _ 𝕄) (scrPts (F := F) c f) := by unfold scrPts; infer_instance
omit [FloatOps F] in
instance rowPts_storable (k : Fin 2) (c : Dev nD) (f) : BI.Storable (upEmb : UEmb _ 𝕄) (rowPts (F := F) k c f) := by unfold rowPts; infer_instance
omit [FloatOps F] in
instance srcPts_storable (k : Fin 2) (c : Dev nD) : BI.Storable (upEmb : UEmb _ 𝕄) (srcPts (F := F) m k c) := by unfold srcPts; infer_instance

/-! ## The landing buffer is its two row halves -/

omit [FloatOps F] in
theorem scr_set : (rM : Memref sig .tc .vmem S256x256 .f32).view.set = Finset.univ := View.set_whole _
omit [FloatOps F] in
theorem row_set (k : Fin 2) : (dstM k).view.set = (Rect.unit (s := S256x256) ![128 * k.val, 0] S128x256.size (dst_inb k)).set :=
  View.set_slice_whole cc0_scratch0 _
omit [FloatOps F] in
theorem rows_disjoint : Disjoint (dstM 0).view.set (dstM 1).view.set := by
  rw [row_set, row_set]; exact Rect.unit_disjoint (0 : Fin 2) (Or.inl (by decide))
omit [FloatOps F] in
theorem rows_cover : (dstM 0).view.set ∪ (dstM 1).view.set = (rM : Memref sig .tc .vmem S256x256 .f32).view.set := by
  rw [scr_set, row_set, row_set]
  ext i
  simp only [Finset.mem_union, Rect.mem_set_unit, Finset.mem_univ, iff_true]
  have h0 : (i 0).val < 256 := (i 0).isLt
  have h1 : (i 1).val < 256 := (i 1).isLt
  by_cases h : (i 0).val < 128
  · left; intro a; fin_cases a
    · exact ⟨Nat.zero_le _, by show (i 0).val < 0 + 128; omega⟩
    · exact ⟨Nat.zero_le _, by show (i 1).val < 0 + 256; omega⟩
  · right; intro a; fin_cases a
    · exact ⟨by show 128 ≤ (i 0).val; omega, by show (i 0).val < 128 + 128; omega⟩
    · exact ⟨Nat.zero_le _, by show (i 1).val < 0 + 256; omega⟩

omit [FloatOps F] in
/-- The landing buffer held whole is its two row halves held, at the same contents. -/
theorem scr_rows (c : Dev nD) (f : Buf (Elt F) ((rM : Memref sig .tc .vmem S256x256 .f32).view.loc (c : Thread nD τ))) :
    scrPts c f ⊣⊢ iprop(rowPts 0 c f ∗ rowPts 1 c f) := by
  unfold scrPts rowPts
  rw [← rows_cover]
  exact pointsTo_union rows_disjoint

/-! ## The schedule -/

/-- What the partner's signal hands device `c`: the partner's landing buffer, as its two row halves at some contents,
    and that the partner's two receive cells are at round 0. -/
def barPay (c : Dev nD) : sProp 𝕄 :=
  iprop((∃ f, rowPts 0 (peer c) f) ∗ (∃ f, rowPts 1 (peer c) f) ∗ reached ER (recvCell 0 (peer c)) 0 ∗ reached ER (recvCell 1 (peer c)) 0)
def recvPay (k : Fin 2) (c : Dev nD) : sProp 𝕄 := rowPts k c (landed m k c)
def sendPay (k : Fin 2) (c : Dev nD) : sProp 𝕄 := srcPts m k c

abbrev IsBar (g : GSem nD τ sig) : Prop := g.1.2 = .tc ∧ g.2 = .reg barS
abbrev IsXfer (g : GSem nD τ sig) : Prop := g.1.2 = .tc ∧ (g.2 = .dma (sS 0) ∨ g.2 = .dma (sS 1) ∨ g.2 = .dma (rS 0) ∨ g.2 = .dma (rS 1))

/-- One round, round 0, one duty a cell: a barrier cell's is one unit; a send or receive cell's the chunk's credit. -/
def xRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma (rS 0) then recvPay m 0 g.1.1
    else if g.2 = .dma (rS 1) then recvPay m 1 g.1.1
    else if g.2 = .dma (sS 0) then sendPay m 0 g.1.1
    else if g.2 = .dma (sS 1) then sendPay m 1 g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m).payload g r d) := by
  show BI.Storable upEmb (if g.2 = .reg barS then barPay g.1.1
    else if g.2 = .dma (rS 0) then recvPay m 0 g.1.1
    else if g.2 = .dma (rS 1) then recvPay m 1 g.1.1
    else if g.2 = .dma (sS 0) then sendPay m 0 g.1.1
    else if g.2 = .dma (sS 1) then sendPay m 1 g.1.1
    else iprop(emp))
  unfold barPay recvPay sendPay
  (repeat' split) <;> infer_instance

section Tables
variable (c : Dev nD)

theorem sS_ne_bar (k : Fin 2) : (SemLoc.dma (sS k) : SemLoc sig) ≠ .reg barS := fun h => by cases h
theorem rS_ne_bar (k : Fin 2) : (SemLoc.dma (rS k) : SemLoc sig) ≠ .reg barS := fun h => by cases h
theorem sS_ne_rS (k k' : Fin 2) : (SemLoc.dma (sS k) : SemLoc sig) ≠ .dma (rS k') := by revert k k'; decide
theorem rS_ne_sS (k k' : Fin 2) : (SemLoc.dma (rS k) : SemLoc sig) ≠ .dma (sS k') := by revert k k'; decide
theorem sS1_ne_sS0 : (SemLoc.dma (sS 1) : SemLoc sig) ≠ .dma (sS 0) := by decide
theorem rS1_ne_rS0 : (SemLoc.dma (rS 1) : SemLoc sig) ≠ .dma (rS 0) := by decide

theorem isXfer_send : ∀ k : Fin 2, IsXfer (sendCell k c)
  | 0 => ⟨rfl, .inl rfl⟩
  | 1 => ⟨rfl, .inr (.inl rfl)⟩
theorem isXfer_recv : ∀ k : Fin 2, IsXfer (recvCell k c)
  | 0 => ⟨rfl, .inr (.inr (.inl rfl))⟩
  | 1 => ⟨rfl, .inr (.inr (.inr rfl))⟩

theorem duties_bar : (xRd (F := F) m).duties (barCell c) 0 = {()} := by dsimp only [xRd]; exact if_pos ⟨rfl, .inl ⟨rfl, rfl⟩⟩
theorem duties_send (k : Fin 2) : (xRd (F := F) m).duties (sendCell k c) 0 = {()} := by
  dsimp only [xRd]; exact if_pos ⟨rfl, .inr (isXfer_send c k)⟩
theorem duties_recv (k : Fin 2) : (xRd (F := F) m).duties (recvCell k c) 0 = {()} := by
  dsimp only [xRd]; exact if_pos ⟨rfl, .inr (isXfer_recv c k)⟩
theorem duties_later (g : GSem nD τ sig) : ∀ r, 1 ≤ r → (xRd (F := F) m).duties g r = ∅ :=
  fun r hr => by dsimp only [xRd]; rw [if_neg fun h => by omega]

theorem amount_bar (d : Unit) : (xRd (F := F) m).amount (barCell c) 0 d = 1 := by dsimp only [xRd]; exact if_pos rfl
theorem amount_send (k : Fin 2) (d : Unit) : (xRd (F := F) m).amount (sendCell k c) 0 d = N := by dsimp only [xRd]; exact if_neg (sS_ne_bar k)
theorem amount_recv (k : Fin 2) (d : Unit) : (xRd (F := F) m).amount (recvCell k c) 0 d = N := by dsimp only [xRd]; exact if_neg (rS_ne_bar k)

theorem expect_bar : (xRd (F := F) m).expect (barCell c) 0 = 1 := by
  unfold Schedule.expect Schedule.amountOf; rw [duties_bar, Finset.sum_singleton, amount_bar]
theorem expect_send (k : Fin 2) : (xRd (F := F) m).expect (sendCell k c) 0 = N := by
  unfold Schedule.expect Schedule.amountOf; rw [duties_send, Finset.sum_singleton, amount_send]
theorem expect_recv (k : Fin 2) : (xRd (F := F) m).expect (recvCell k c) 0 = N := by
  unfold Schedule.expect Schedule.amountOf; rw [duties_recv, Finset.sum_singleton, amount_recv]

theorem payload_bar (d : Unit) : (xRd (F := F) m).payload (barCell c) 0 d = barPay c := by dsimp only [xRd]; rw [if_pos rfl]
theorem payload_recv : ∀ (k : Fin 2) (d : Unit), (xRd (F := F) m).payload (recvCell k c) 0 d = recvPay m k c
  | 0, _ => by dsimp only [xRd]; rw [if_neg (rS_ne_bar 0), if_pos rfl]
  | 1, _ => by dsimp only [xRd]; rw [if_neg (rS_ne_bar 1), if_neg rS1_ne_rS0, if_pos rfl]
theorem payload_send : ∀ (k : Fin 2) (d : Unit), (xRd (F := F) m).payload (sendCell k c) 0 d = sendPay m k c
  | 0, _ => by dsimp only [xRd]; rw [if_neg (sS_ne_bar 0), if_neg (sS_ne_rS 0 0), if_neg (sS_ne_rS 0 1), if_pos rfl]
  | 1, _ => by dsimp only [xRd]; rw [if_neg (sS_ne_bar 1), if_neg (sS_ne_rS 1 0), if_neg (sS_ne_rS 1 1), if_neg sS1_ne_sS0, if_pos rfl]

theorem rest_bar : bigSep ((xRd (F := F) m).duties (barCell c) 0 \ ∅) (fun d => (xRd (F := F) m).payload (barCell c) 0 d) = barPay c := by
  rw [Finset.sdiff_empty, duties_bar, bigSep_singleton, payload_bar]
theorem rest_send (k : Fin 2) : bigSep ((xRd (F := F) m).duties (sendCell k c) 0 \ ∅) (fun d => (xRd (F := F) m).payload (sendCell k c) 0 d) = sendPay m k c := by
  rw [Finset.sdiff_empty, duties_send, bigSep_singleton, payload_send]
theorem rest_recv (k : Fin 2) : bigSep ((xRd (F := F) m).duties (recvCell k c) 0 \ ∅) (fun d => (xRd (F := F) m).payload (recvCell k c) 0 d) = recvPay m k c := by
  rw [Finset.sdiff_empty, duties_recv, bigSep_singleton, payload_recv]

end Tables

/-! ## What each device owes at launch; the levels -/

/-- After its signal device `c` still owes its partner's two receive cells a chunk's credit each; -/
def O₁ (c : Dev nD) : CellTallies nD τ sig Unit := tallyAt (recvCell 1 (peer c)) () N + tallyAt (recvCell 0 (peer c)) () N
/-- at launch also the unit of its signal on the partner's barrier cell. -/
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma (rS 0) ∨ g.2 = .dma (rS 1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (k : Fin 2) (c : Dev nD) (u : Unit) : lv (recvCell k c) u = 2 := by
  dsimp only [lv]; rw [if_neg (rS_ne_bar k)]
  exact if_pos (by revert k; decide)
theorem lv_bar (c : Dev nD) (u : Unit) : lv (barCell c) u = 1 := by dsimp only [lv]; rw [if_pos rfl]

theorem O₁_pos {c : Dev nD} {g : GSem nD τ sig} {u : Unit} (h : 0 < O₁ c g u) :
    g = recvCell 1 (peer c) ∨ g = recvCell 0 (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvCell 1 (peer c) ∨ g = recvCell 0 (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    rcases O₁_pos h with h1 | h1
    · exact .inl h1
    · exact .inr (.inl h1)

/-- A wait on a cell at level 0 (a staging cell, a send cell) is below everything a device may owe. -/
theorem mayWait_low (c : Dev nD) (q : DmaSem sig) (hq : (SemLoc.dma q : SemLoc sig) ≠ .dma (rS 0) ∧ (SemLoc.dma q : SemLoc sig) ≠ .dma (rS 1))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq.1 hq.2)])
      (fun g u hg => by
        rcases O₀_pos hg with rfl | rfl | rfl
        · rw [lv_recv]; decide
        · rw [lv_recv]; decide
        · rw [lv_bar]; decide)
  · rw [MayWait_zero]; iintro -; iempintro

/-- At its barrier wait a device owes its partner's receive cells only: they sit above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_recv]; decide
      · rw [lv_recv]; decide)

/-! ## The kernel's result on a device, and the pipeline's proof data -/

abbrev rAll : Rect S256x256 := Rect.unit (s := S256x256) ![0, 0] S256x256.size inb_S256x256_S256x256_0_0
abbrev rRow (k : Fin 2) : Rect S256x256 := Rect.unit (s := S256x256) ![128 * k.val, 0] S128x256.size (dst_inb k)
abbrev rCol (h : Fin 2) : Rect S1x256x512 :=
  Rect.unit (s := S1x256x512) ![0, 0, 256 * h.val] S1x256x256.size (by revert h; decide)

/-- The device's own columns of the half it keeps: what it stores first. -/
def own (c : Dev nD) : (cc0_stg1_0 : Ref sig .tc).ty.Contents (Elt F) :=
  k0_pay1 ((xM : Memref sig .tc .vmem S1x256x512 .f32).view.readAt (Elt F) (rCol (half c)).toLoadRect (xstg m c))

/-- Rows `128 k ..` of a result `o` with the landed chunk `k` added. -/
def addRows (k : Fin 2) (c : Dev nD) (o : (cc0_stg1_0 : Ref sig .tc).ty.Contents (Elt F)) : (cc0_stg1_0 : Ref sig .tc).ty.Contents (Elt F) :=
  ((oM : Memref sig .tc .vmem S256x256 .f32).access (rRow k) : View sig .tc _ _ _).write (Elt F) o
    (k0_pay3 ((oM : Memref sig .tc .vmem S256x256 .f32).view.readAt (Elt F) (rRow k).toLoadRect o)
      ((rM : Memref sig .tc .vmem S256x256 .f32).view.readAt (Elt F) (rRow k).toLoadRect (landed m k c))) Finset.univ

/-- The kernel's result on device `c`: its own columns, then the partner's two chunks added, rows `0 ..` then rows `128 ..`. -/
def outAt (c : Dev nD) : (cc0_stg1_0 : Ref sig .tc).ty.Contents (Elt F) := addRows m 1 c (addRows m 0 c (own m c))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, its
    partner's barrier cell (its signal) and the partner's two receive cells (its copies). -/
def invs (K : Dev nD × Fin 5 → ℕ) (c : Dev nD) : sProp 𝕄 :=
  iprop(cellInv ER (xRd m) (K (c, 0)) (barCell c) ∗ cellInv ER (xRd m) (K (c, 1)) (sendCell 0 c) ∗ cellInv ER (xRd m) (K (c, 2)) (sendCell 1 c)
    ∗ cellInv ER (xRd m) (K (c, 3)) (recvCell 0 c) ∗ cellInv ER (xRd m) (K (c, 4)) (recvCell 1 c)
    ∗ cellInv ER (xRd m) (K (peer c, 0)) (barCell (peer c))
    ∗ cellInv ER (xRd m) (K (peer c, 3)) (recvCell 0 (peer c)) ∗ cellInv ER (xRd m) (K (peer c, 4)) (recvCell 1 (peer c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own transfer cells; the five duty tokens it pays with — its partner's
    barrier duty and two receive duties, its own two send duties. -/
def ghost (K : Dev nD × Fin 5 → ℕ) (c : Dev nD) : sProp 𝕄 :=
  iprop(invs m K c
    ∗ atPos ER (barCell c) 0 ∅ 0 ∗ atPos ER (sendCell 0 c) 0 ∅ 0 ∗ atPos ER (sendCell 1 c) 0 ∅ 0 ∗ atPos ER (recvCell 0 c) 0 ∅ 0 ∗ atPos ER (recvCell 1 c) 0 ∅ 0
    ∗ reached ER (barCell (peer c)) 0 ∗ reached ER (recvCell 0 (peer c)) 0 ∗ reached ER (recvCell 1 (peer c)) 0
    ∗ reached ER (sendCell 0 c) 0 ∗ reached ER (sendCell 1 c) 0 ∗ reached ER (recvCell 0 c) 0 ∗ reached ER (recvCell 1 c) 0
    ∗ dutyTok ER (barCell (peer c)) 0 () ∗ dutyTok ER (recvCell 0 (peer c)) 0 () ∗ dutyTok ER (recvCell 1 (peer c)) 0 ()
    ∗ dutyTok ER (sendCell 0 c) 0 () ∗ dutyTok ER (sendCell 1 c) 0 ())

/-- What device `c`'s body starts from: that at some names, its three credit tokens (its barrier's unit, its two
    receive cells' credit) and the level facts. -/
def start (c : Dev nD) : sProp 𝕄 :=
  iprop((∃ K, ghost m K c) ∗ cred (tallyAt (barCell c) () 1) ∗ cred (tallyAt (recvCell 0 c) () N) ∗ cred (tallyAt (recvCell 1 c) () N) ∗ levAts L lv)

def Φ₀ (c : Dev nD) : sProp 𝕄 := iprop(start m c ∗ ∃ f, scrPts c f)
/-- After the point: the landing buffer back whole, the four own cells at zero, closed. -/
def Φ₁ (c : Dev nD) : sProp 𝕄 :=
  iprop((∃ f, scrPts c f) ∗ semVal (sendCell 0 c) 0 ∗ semVal (sendCell 1 c) 0 ∗ semVal (recvCell 0 c) 0 ∗ semVal (recvCell 1 c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Xchg

end
-- ==== Proof.Body.lean ====
/-
  One device's body of the exchange, stepped from the exchange's ghost state to the pipeline's post.

  The device pays its partner's barrier duty with its own landing buffer (cut into its two row halves) and the marks
  of its receive cells; stores its own columns of the half it keeps; waits for the partner's unit, which brings the
  partner's landing buffer; sends the two chunks of the other half, each copy paying the partner's receive duty with
  the rows it lands in and its own send duty with the rows it reads; and after chunk `k`'s two waits (its source rows
  back, its own landing rows holding the partner's chunk) adds the landed rows into its result. The devices with
  `c % 2 = 0` and with `c % 2 = 1` run the two mirror branches of the kernel.
-/
import proofs.«900307_g7700000000000308_dist_rs_v7x_xy2x2_y_m256_n256_f32_1_alg».proof.Proof.Sched

noncomputable section

namespace Cert.KernelIdeal.Xchg

open Cert.KernelIdeal Cert.KernelIdeal.Gen Cert.RS

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A buffer of device `c` held whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 5 → ℕ)

def bodyPre (c : Dev nD) : sProp 𝕄 :=
  iprop((ghost m K c ∗ cred (tallyAt (barCell c) () 1) ∗ cred (tallyAt (recvCell 0 c) () N) ∗ cred (tallyAt (recvCell 1 c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outAt m c))

theorem fetch_0 (t : Fin cfg0.N) : (cfg0.win (0 : Fin 2)).fetch t = true := by rw [fin_N t]; rfl

/-! ### The schedule's tables as the stepping reads them: payloads spelt as the points-tos they are -/

theorem half_peer_even (c : Dev nD) (hc : c.val % 2 = 0) : half (peer c) = 1 := by revert c; decide
theorem half_peer_odd (c : Dev nD) (hc : c.val % 2 = 1) : half (peer c) = 0 := by revert c; decide
theorem half_even (c : Dev nD) (hc : c.val % 2 = 0) : half c = 0 := by revert c; decide
theorem half_odd (c : Dev nD) (hc : c.val % 2 = 1) : half c = 1 := by revert c; decide

/-- What device `c` hands its partner with its signal: its own landing rows and its receive cells' marks. -/
theorem payload_barP (c : Dev nD) (d : Unit) : (xRd (F := F) m).payload (barCell (peer c)) 0 d
    = iprop((∃ f, (dstM 0).view.loc (c : Thread nD τ) ↦[(dstM 0).view.set]{fullShare} f)
        ∗ (∃ f, (dstM 1).view.loc (c : Thread nD τ) ↦[(dstM 1).view.set]{fullShare} f)
        ∗ reached ER (recvCell 0 c) 0 ∗ reached ER (recvCell 1 c) 0) := by
  rw [payload_bar]; unfold barPay rowPts; rw [peer_peer]

/-- What the partner's signal hands device `c`. -/
theorem payload_barO (c : Dev nD) (d : Unit) : (xRd (F := F) m).payload (barCell c) 0 d
    = iprop((∃ f, (dstM 0).view.loc (peer c : Thread nD τ) ↦[(dstM 0).view.set]{fullShare} f)
        ∗ (∃ f, (dstM 1).view.loc (peer c : Thread nD τ) ↦[(dstM 1).view.set]{fullShare} f)
        ∗ reached ER (recvCell 0 (peer c)) 0 ∗ reached ER (recvCell 1 (peer c)) 0) := by
  rw [payload_bar]; unfold barPay rowPts; rfl

theorem payload_sendO (k : Fin 2) (c : Dev nD) (d : Unit) : (xRd (F := F) m).payload (sendCell k c) 0 d
    = ((srcM k (half (peer c))).view.loc (c : Thread nD τ) ↦[(srcM k (half (peer c))).view.set]{fullShare} xstg m c) := by
  rw [payload_send]; rfl

theorem payload_recvO (k : Fin 2) (c : Dev nD) (d : Unit) : (xRd (F := F) m).payload (recvCell k c) 0 d
    = ((dstM k).view.loc (c : Thread nD τ) ↦[(dstM k).view.set]{fullShare} landed m k c) := by
  rw [payload_recv]; rfl

/-- A chunk landed over whatever the rows held is the landing buffer as the schedule names it: off the rows written
    nothing is claimed, on them both are the chunk. -/
theorem landed_pay (k : Fin 2) (c : Dev nD) (fd : Buf (Elt F) ((dstM k).view.loc (peer c : Thread nD τ))) :
    ((dstM k).view.loc (peer c : Thread nD τ) ↦[(dstM k).view.set]{fullShare}
        ((dstM k).view.write (Elt F) fd ((srcM k (half (peer c))).view.read (Elt F) (xstg m c)) Finset.univ) : sProp 𝕄)
      ⊢ (xRd (F := F) m).payload (recvCell k (peer c)) 0 () := by
  rw [payload_recvO]
  unfold landed sent
  rw [peer_peer]
  refine Entails.of_eq (pointsTo_congr fun i hi => ?_)
  obtain ⟨y, rfl⟩ := View.exists_emb_of_mem_set _ hi
  rw [View.write_emb_of_mem _ _ (Finset.mem_univ y), View.write_emb_of_mem _ _ (Finset.mem_univ y)]
  simp only [peer_peer]

theorem dv1 (c : Dev nD) (h : k0_dev1 c < nD) : (⟨k0_dev1 c, h⟩ : Dev nD) = peer c := Fin.ext (k0_dev1_eq c)
theorem dv2 (c : Dev nD) (h : k0_dev2 c < nD) : (⟨k0_dev2 c, h⟩ : Dev nD) = peer c := Fin.ext (k0_dev2_eq c)
theorem dv3 (c : Dev nD) (h : k0_dev3 c < nD) : (⟨k0_dev3 c, h⟩ : Dev nD) = peer c := Fin.ext (k0_dev3_eq c)
theorem dv4 (c : Dev nD) (h : k0_dev4 c < nD) : (⟨k0_dev4 c, h⟩ : Dev nD) = peer c := Fin.ext (k0_dev4_eq c)
theorem dv5 (c : Dev nD) (h : k0_dev5 c < nD) : (⟨k0_dev5 c, h⟩ : Dev nD) = peer c := Fin.ext (k0_dev5_eq c)

omit [FloatOps F] in
theorem src_set (k h : Fin 2) : (srcM k h).view.set
    = (Rect.unit (s := S1x256x512) ![0, 128 * k.val, 256 * h.val] S1x128x256.size (src_inb k h)).set := by
  show (((xM : Memref sig .tc .vmem S1x256x512 .f32).view.slice _).reshape S128x256 _).set = _
  rw [View.set_reshape]; exact View.set_slice_whole cc0_stg0_0 _
omit [FloatOps F] in
theorem src_disjoint (h : Fin 2) : Disjoint (srcM 0 h).view.set (srcM 1 h).view.set := by
  rw [src_set, src_set]; exact Rect.unit_disjoint (1 : Fin 3) (Or.inl (by revert h; decide))

omit [FloatOps F] in
theorem xPts_eq (c : Dev nD) : xPts m c = (((c : Thread nD τ).loc cc0_stg0_0) ↦{fullShare} xstg m c : sProp 𝕄) := by
  unfold xPts; rw [View.set_whole]

/-- The result's staging buffer of device `c` held whole at `g`, through its memref. -/
def oPts (c : Dev nD) (g : Buf (Elt F) ((oM : Memref sig .tc .vmem S256x256 .f32).view.loc (c : Thread nD τ))) : sProp 𝕄 :=
  (oM : Memref sig .tc .vmem S256x256 .f32).view.loc (c : Thread nD τ) ↦[(oM : Memref sig .tc .vmem S256x256 .f32).view.set]{fullShare} g
omit [FloatOps F] in
theorem oPts_eq (c : Dev nD) (g : Buf (Elt F) ((c : Thread nD τ).loc cc0_stg1_0)) :
    oPts c g = (((c : Thread nD τ).loc cc0_stg1_0) ↦{fullShare} g : sProp 𝕄) := by
  unfold oPts; rw [View.set_whole]

omit [FloatOps F] in
theorem amount_dst : ∀ k : Fin 2, (dstM k).view.amount (SemLoc.dma (rS k) : SemLoc sig) = N
  | 0 => rfl
  | 1 => rfl

/-- The copy of chunk `k` at the exchange's cells, addressed to a device `n` that IS the partner: the chunk's source
    rows pay this device's send duty, the partner's rows it lands in pay the partner's receive duty, and this device
    owes the partner's receive cell the chunk's credit no longer. -/
theorem wp_send_chunk (k h : Fin 2) (c n : Dev nD) (hn : n = peer c) (hh : half (peer c) = h) (κ₁ κ₂ : ℕ)
    {hsc : ((dstM k) : Memref sig (Dev.tc n : Thread nD τ).2.kind .vmem S128x256 .f32).view.ref.isScScratch = false}
    {hsrc : (srcM k h).view.WordExact} {hdst : (dstM k).view.WordExact}
    {hsem : DmaTarget.Typed .vmem (.dma (rS k)) (.remote (Dev.tc n : Thread nD τ) (dstM k) (.dma (sS k)) hsc)}
    {α : Type} {Q : α → sProp 𝕄} {k' : PUnit → Prog (TpuEff nD τ sig (Elt F) Λ₀ .tc) α}
    (fn : Buf (Elt F) ((dstM k).view.loc (peer c : Thread nD τ))) (O₀ O : CellTallies nD τ sig Unit)
    (hO : O₀ = O + tallyAt (recvCell k (peer c)) () N) (W : Waits sig Unit) :
    iprop(cellInv ER (xRd m) κ₁ (sendCell k c) ∗ cellInv ER (xRd m) κ₂ (recvCell k (peer c))
        ∗ ((srcM k h).view.loc (c : Thread nD τ) ↦[(srcM k h).view.set]{fullShare} xstg m c)
        ∗ ((dstM k).view.loc (peer c : Thread nD τ) ↦[(dstM k).view.set]{fullShare} fn)
        ∗ owes (c : Thread nD τ) O₀ W
        ∗ dutyTok ER (sendCell k c) 0 () ∗ reached ER (sendCell k c) 0
        ∗ dutyTok ER (recvCell k (peer c)) 0 () ∗ reached ER (recvCell k (peer c)) 0)
      ⊢ iprop(((cred (tallyAt (sendCell k c) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (srcM k h) (.remote (Dev.tc n : Thread nD τ) (dstM k) (.dma (sS k)) hsc) (.dma (rS k)) hsrc hdst hsem) k') Q) := by
  subst hn; subst hh
  exact Rounds.wp_send_pointsTo 𝒱₀ ER (xRd m) (c : Thread nD τ) none (κ₁ := κ₁) (κ₂ := κ₂)
    (r₁ := 0) (r₂ := 0) (d₁ := ()) (d₂ := ()) (fd := fn)
    (by rw [duties_send]; exact Finset.mem_singleton_self _) (by rw [duties_recv]; exact Finset.mem_singleton_self _)
    () () N (amount_dst k) (amount_send m c k ()) (amount_recv m (peer c) k ()) O hO (W := W)
    (by rw [payload_sendO])
    (landed_pay m k c fn)

omit [FloatOps F] in
theorem src_credit : ∀ k h : Fin 2, (srcM k h).view.dmaCredit = N
  | 0, 0 => rfl
  | 0, 1 => rfl
  | 1, 0 => rfl
  | 1, 1 => rfl
omit [FloatOps F] in
theorem dst_credit : ∀ k : Fin 2, (dstM k).view.dmaCredit = N
  | 0 => rfl
  | 1 => rfl

omit [FloatOps F] in
theorem hz2 : (![0, 0] : Fin 2 → Nat) = fun _ => 0 := funext fun a => by fin_cases a <;> rfl

omit [FloatOps F] in
/-- A store through the whole result buffer leaves its payload, whatever the buffer held. -/
theorem write_all (g w : (cc0_stg1_0 : Ref sig .tc).ty.Contents (Elt F)) :
    ((oM : Memref sig .tc .vmem S256x256 .f32).access rAll : View sig .tc _ _ _).write (Elt F) g w Finset.univ = w :=
  Memref.write_access_unit_zero_univ (Elt F) cc0_stg1_0 hz2 _ g w

/-- Whatever the result's staging buffer held, after the three stores of a device with `c % 2 = h` it holds `outAt`:
    the first store overwrites all of it. -/
theorem out_of_half (c : Dev nD) (h : Fin 2) (hh : half c = h) (g : (cc0_stg1_0 : Ref sig .tc).ty.Contents (Elt F)) :
    addRows m 1 c (addRows m 0 c
      (((oM : Memref sig .tc .vmem S256x256 .f32).access rAll : View sig .tc _ _ _).write (Elt F) g
        (k0_pay1 ((xM : Memref sig .tc .vmem S1x256x512 .f32).view.readAt (Elt F) (rCol h).toLoadRect (xstg m c))) Finset.univ))
      = outAt m c := by
  subst hh
  unfold outAt own
  rw [write_all]

attribute [local sl_rounds] duties_bar duties_send duties_recv amount_bar amount_send amount_recv expect_bar expect_send expect_recv
  payload_barO payload_sendO payload_recvO

set_option maxHeartbeats 3200000 in
/-- The body on a device with `c % 2 = 0`: it keeps the columns `0 ..` and sends the columns `256 ..`. -/
theorem body_even (c : Dev nD) (hc : c.val % 2 = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [Prog.lift, Prog.bind_op, Prog.bind_ret, Prog.pure_eq_ret, wp_deviceId]
  simp only [cond1_even c hc, cond2_even c hc, cond3_even c hc, cond4_even c hc, ↓reduceDIte, dite_true, dite_false]
  simp only [k0_part1_eq_skeleton, k0_part2_eq_skeleton]; unfold k0_part1_skel k0_part2_skel
  simp only [semSignalWord, semWaitWord, Prog.lift, Prog.bind_op, Prog.bind_ret, Prog.bind_lift, Prog.pure_eq_ret, bind_assoc]
  simp only [dv1 c]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1, #HrR0, #HrR1, HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁
  ihave Hrows := (scr_rows c f0).1 $$ Hscr
  unfold rowPts
  icases Hrows with ⟨Hrow0, Hrow1⟩
  -- the signal to the partner's barrier cell: its one duty, paid with this device's landing rows and receive marks
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) ()
      (tallyAt (recvCell 1 (peer c)) () N + tallyAt (recvCell 0 (peer c)) () N) rfl) $$ [HO HtBP Hrow0 Hrow1]
  · isplitr; · iexact HIbarP
    isplitl [HO]; · iexact HO
    isplitl [HtBP]; · iexact HtBP
    isplitl [Hrow0 Hrow1]
    · rw [payload_barP]
      isplitl [Hrow0]; · iexists f0; iexact Hrow0
      isplitl [Hrow1]; · iexists f0; iexact Hrow1
      isplitr; · iexact HrR0
      iexact HrR1
    · iexact HrBP
  iintro HO
  -- the device's own columns of the half it keeps, stored over the whole result
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := rAll) (Mk := Finset.univ) (Finset.subset_univ _)) $$ Hout; iintro Hout
  -- the wait for the partner's unit: the partner's landing rows come with it
  have hmwB : (levAts L lv : sProp 𝕄) ⊢ MayWait (c : Thread nD τ) (.reg barS) ()
      (tallyAt (recvCell 1 (peer c)) () N + tallyAt (recvCell 0 (peer c)) () N) := mayWait_bar c
  beta_reduce
  sl_exec
  -- the staged block cut into the two chunks' source rows and the rest
  ihave Hx3 := (pointsTo_split_subset (ℓ := (c : Thread nD τ).loc cc0_stg0_0) (I := (srcM 0 1).view.set ∪ (srcM 1 1).view.set) (S := Finset.univ)
      (Finset.subset_univ _)).1 $$ Hx
  icases Hx3 with ⟨Hs01, Hxrest⟩
  ihave Hs01' := (pointsTo_union (ℓ := (c : Thread nD τ).loc cc0_stg0_0) (src_disjoint 1)).1 $$ Hs01
  icases Hs01' with ⟨Hs0, Hs1⟩
  -- chunk 0, then chunk 1: each copy's source rows pay this device's send duty, the rows it lands in the partner's receive duty
  iapply (wp_send_chunk m 0 1 c _ (dv2 c _) (half_peer_even c hc) (K (c, 1)) (K (peer c, 3)) HatB_pay1_v
      _ (tallyAt (recvCell 1 (peer c)) () N) rfl _) $$ [Hs0 HatB_pay1 HO HtS0 HtR0P]
  · isplitr; · iexact HIs0
    isplitr; · iexact HIr0P
    isplitl [Hs0]; · iexact Hs0
    isplitl [HatB_pay1]; · iexact HatB_pay1
    isplitl [HO]; · iexact HO
    isplitl [HtS0]; · iexact HtS0
    isplitr; · iexact HrS0
    isplitl [HtR0P]; · iexact HtR0P
    iexact HrR0P
  iintro ⟨HcS0, HO⟩
  iapply (wp_send_chunk m 1 1 c _ (dv3 c _) (half_peer_even c hc) (K (c, 2)) (K (peer c, 4)) HatB_pay2_v
      _ 0 (zero_add _).symm _) $$ [Hs1 HatB_pay2 HO HtS1 HtR1P]
  · isplitr; · iexact HIs1
    isplitr; · iexact HIr1P
    isplitl [Hs1]; · iexact Hs1
    isplitl [HatB_pay2]; · iexact HatB_pay2
    isplitl [HO]; · iexact HO
    isplitl [HtS1]; · iexact HtS1
    isplitr; · iexact HrS1
    isplitl [HtR1P]; · iexact HtR1P
    iexact HrR1P
  iintro ⟨HcS1, HO⟩
  -- chunk 0's send wait: its source rows come back
  iapply (Rounds.wp_wait_rest_token 𝒱₀ ER (xRd m) (c : Thread nD τ) none (κ := K (c, 1))
      (wpE_waitDma2_eq 𝒱₀ (c : Thread nD τ) none Set.univ) (Set.mem_univ _) () (O := 0) (R := 0) (m := 0) (T := ∅)
      ((Nat.zero_add _).trans ((src_credit 0 1).trans (expect_send m c 0).symm))) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq ((rest_send m c 0).trans (by unfold sendPay srcPts; rw [half_peer_even c hc]))) $$ Hpay
  -- chunk 0's receive wait: this device's landing rows come holding the partner's chunk
  iapply (Rounds.wp_wait_rest_token 𝒱₀ ER (xRd m) (c : Thread nD τ) none (κ := K (c, 3))
      (wpE_waitDma2_eq 𝒱₀ (c : Thread nD τ) none Set.univ) (Set.mem_univ _) () (O := 0) (R := 0) (m := 0) (T := ∅)
      ((Nat.zero_add _).trans ((dst_credit 0).trans (expect_recv m c 0).symm))) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq ((rest_recv m c 0).trans (by unfold recvPay rowPts; rfl))) $$ Hpay
  -- rows 0 .. of the result: what they hold plus the landed chunk 0
  iapply (wp_load 𝒱₀ (c : Thread nD τ) none Set.univ (m := oM) (Finset.subset_univ _)) $$ Hout; iintro Hout
  iapply (wp_load_rect 𝒱₀ (c : Thread nD τ) none Set.univ (m := rM) (r := rRow 0) (Finset.Subset.refl _)) $$ Hl0; iintro Hl0
  iapply (wp_load 𝒱₀ (c : Thread nD τ) none Set.univ (m := oM) (Finset.subset_univ _)) $$ Hout; iintro Hout
  iapply (wp_store 𝒱₀ (c : Thread nD τ) none Set.univ (m := oM) (r := rRow 0) (Mk := Finset.univ) (Finset.subset_univ _)) $$ Hout; iintro Hout
  -- chunk 1's send wait: its source rows come back
  iapply (Rounds.wp_wait_rest_token 𝒱₀ ER (xRd m) (c : Thread nD τ) none (κ := K (c, 2))
      (wpE_waitDma2_eq 𝒱₀ (c : Thread nD τ) none Set.univ) (Set.mem_univ _) () (O := 0) (R := 0) (m := 0) (T := ∅)
      ((Nat.zero_add _).trans ((src_credit 1 1).trans (expect_send m c 1).symm))) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq ((rest_send m c 1).trans (by unfold sendPay srcPts; rw [half_peer_even c hc]))) $$ Hpay
  -- chunk 1's receive wait: this device's landing rows come holding the partner's chunk
  iapply (Rounds.wp_wait_rest_token 𝒱₀ ER (xRd m) (c : Thread nD τ) none (κ := K (c, 4))
      (wpE_waitDma2_eq 𝒱₀ (c : Thread nD τ) none Set.univ) (Set.mem_univ _) () (O := 0) (R := 0) (m := 0) (T := ∅)
      ((Nat.zero_add _).trans ((dst_credit 1).trans (expect_recv m c 1).symm))) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq ((rest_recv m c 1).trans (by unfold recvPay rowPts; rfl))) $$ Hpay
  -- the four own cells close: their counters at zero are the device's again
  imod (Rounds.cell_close ER (xRd m) (Set.mem_univ (K (c, 1))) (fun h => h) (R := 0 + 1) (duties_later m (sendCell 0 c))) $$ [HatS0] with HzS0
  · isplitr; · iexact HIs0
    iexact HatS0
  imod (Rounds.cell_close ER (xRd m) (Set.mem_univ (K (c, 2))) (fun h => h) (R := 0 + 1) (duties_later m (sendCell 1 c))) $$ [HatS1] with HzS1
  · isplitr; · iexact HIs1
    iexact HatS1
  imod (Rounds.cell_close ER (xRd m) (Set.mem_univ (K (c, 3))) (fun h => h) (R := 0 + 1) (duties_later m (recvCell 0 c))) $$ [HatR0] with HzR0
  · isplitr; · iexact HIr0
    iexact HatR0
  imod (Rounds.cell_close ER (xRd m) (Set.mem_univ (K (c, 4))) (fun h => h) (R := 0 + 1) (duties_later m (recvCell 1 c))) $$ [HatR1] with HzR1
  · isplitr; · iexact HIr1
    iexact HatR1
  -- rows 128 .. of the result: what they hold plus the landed chunk 1
  iapply (wp_load 𝒱₀ (c : Thread nD τ) none Set.univ (m := oM) (Finset.subset_univ _)) $$ Hout; iintro Hout
  iapply (wp_load_rect 𝒱₀ (c : Thread nD τ) none Set.univ (m := rM) (r := rRow 1) (Finset.Subset.refl _)) $$ Hl1; iintro Hl1
  iapply (wp_load 𝒱₀ (c : Thread nD τ) none Set.univ (m := oM) (Finset.subset_univ _)) $$ Hout; iintro Hout
  iapply (wp_store 𝒱₀ (c : Thread nD τ) none Set.univ (m := oM) (r := rRow 1) (Mk := Finset.univ) (Finset.subset_univ _)) $$ Hout; iintro Hout
  beta_reduce
  rw [wp_ret]; imodintro
  iapply Hk
  unfold bodyPost Φ₁ Dat.owesAt Pipeline.owesWithin
  rw [show (dats m ρ 0 c).owed t₀.succ = 0 from rfl]
  isplitl [Hl0 Hl1 HzS0 HzS1 HzR0 HzR1]
  · isplitl [Hl0 Hl1]
    · -- the landing buffer whole again, at the two landed chunks
      ihave Hj := (pointsTo_join (ℓ := (c : Thread nD τ).loc cc0_scratch0) rows_disjoint) $$ [Hl0 Hl1]
      · isplitl [Hl0] <;> iassumption
      iexists _
      unfold scrPts
      rw [← rows_cover]
      iexact Hj
    isplitl [HzS0]; · iexact HzS0
    isplitl [HzS1]; · iexact HzS1
    isplitl [HzR0]; · iexact HzR0
    iexact HzR1
  isplitl [HO]
  · iexists (insert (SemLoc.dma (rS 1), ()) (insert (SemLoc.dma (sS 1), ()) (insert (SemLoc.dma (rS 0), ()) (insert (SemLoc.dma (sS 0), ())
      (insert (SemLoc.reg barS, ()) W)))))
    isplitr; · ipureintro; exact fun _ _ => Or.inl trivial
    iexact HO
  isplitl [Hs0 Hs1 Hxrest]
  · -- the staged block whole again
    ihave H01 := (pointsTo_union (ℓ := (c : Thread nD τ).loc cc0_stg0_0) (src_disjoint 1)).2 $$ [Hs0 Hs1]
    · isplitl [Hs0] <;> iassumption
    ihave Hxw := (pointsTo_split_subset (ℓ := (c : Thread nD τ).loc cc0_stg0_0) (I := (srcM 0 1).view.set ∪ (srcM 1 1).view.set) (S := Finset.univ)
        (Finset.subset_univ _)).2 $$ [H01 Hxrest]
    · isplitl [H01] <;> iassumption
    iexists _; isplitr; · (ipureintro; rfl)
    iexact Hxw
  iexists _; isplitr; · ipureintro; exact out_of_half m c 0 (half_even c hc) g1
  iexact Hout

set_option maxHeartbeats 3200000 in
/-- The body on a device with `c % 2 = 1`: it keeps the columns `256 ..` and sends the columns `0 ..`. -/
theorem body_odd (c : Dev nD) (hc : c.val % 2 = 1) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [Prog.lift, Prog.bind_op, Prog.bind_ret, Prog.pure_eq_ret, wp_deviceId]
  simp only [cond1_odd c hc, cond2_odd c hc, cond3_odd c hc, cond4_odd c hc, ↓reduceDIte, dite_true, dite_false]
  simp only [k0_part3_eq_skeleton, k0_part4_eq_skeleton]; unfold k0_part3_skel k0_part4_skel
  simp only [semSignalWord, semWaitWord, Prog.lift, Prog.bind_op, Prog.bind_ret, Prog.bind_lift, Prog.pure_eq_ret, bind_assoc]
  simp only [dv1 c]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1, #HrR0, #HrR1, HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁
  ihave Hrows := (scr_rows c f0).1 $$ Hscr
  unfold rowPts
  icases Hrows with ⟨Hrow0, Hrow1⟩
  -- the signal to the partner's barrier cell: its one duty, paid with this device's landing rows and receive marks
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) ()
      (tallyAt (recvCell 1 (peer c)) () N + tallyAt (recvCell 0 (peer c)) () N) rfl) $$ [HO HtBP Hrow0 Hrow1]
  · isplitr; · iexact HIbarP
    isplitl [HO]; · iexact HO
    isplitl [HtBP]; · iexact HtBP
    isplitl [Hrow0 Hrow1]
    · rw [payload_barP]
      isplitl [Hrow0]; · iexists f0; iexact Hrow0
      isplitl [Hrow1]; · iexists f0; iexact Hrow1
      isplitr; · iexact HrR0
      iexact HrR1
    · iexact HrBP
  iintro HO
  -- the device's own columns of the half it keeps, stored over the whole result
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := rAll) (Mk := Finset.univ) (Finset.subset_univ _)) $$ Hout; iintro Hout
  -- the wait for the partner's unit: the partner's landing rows come with it
  have hmwB : (levAts L lv : sProp 𝕄) ⊢ MayWait (c : Thread nD τ) (.reg barS) ()
      (tallyAt (recvCell 1 (peer c)) () N + tallyAt (recvCell 0 (peer c)) () N) := mayWait_bar c
  beta_reduce
  sl_exec
  -- the staged block cut into the two chunks' source rows and the rest
  ihave Hx3 := (pointsTo_split_subset (ℓ := (c : Thread nD τ).loc cc0_stg0_0) (I := (srcM 0 0).view.set ∪ (srcM 1 0).view.set) (S := Finset.univ)
      (Finset.subset_univ _)).1 $$ Hx
  icases Hx3 with ⟨Hs01, Hxrest⟩
  ihave Hs01' := (pointsTo_union (ℓ := (c : Thread nD τ).loc cc0_stg0_0) (src_disjoint 0)).1 $$ Hs01
  icases Hs01' with ⟨Hs0, Hs1⟩
  -- chunk 0, then chunk 1: each copy's source rows pay this device's send duty, the rows it lands in the partner's receive duty
  iapply (wp_send_chunk m 0 0 c _ (dv4 c _) (half_peer_odd c hc) (K (c, 1)) (K (peer c, 3)) HatB_pay1_v
      _ (tallyAt (recvCell 1 (peer c)) () N) rfl _) $$ [Hs0 HatB_pay1 HO HtS0 HtR0P]
  · isplitr; · iexact HIs0
    isplitr; · iexact HIr0P
    isplitl [Hs0]; · iexact Hs0
    isplitl [HatB_pay1]; · iexact HatB_pay1
    isplitl [HO]; · iexact HO
    isplitl [HtS0]; · iexact HtS0
    isplitr; · iexact HrS0
    isplitl [HtR0P]; · iexact HtR0P
    iexact HrR0P
  iintro ⟨HcS0, HO⟩
  iapply (wp_send_chunk m 1 0 c _ (dv5 c _) (half_peer_odd c hc) (K (c, 2)) (K (peer c, 4)) HatB_pay2_v
      _ 0 (zero_add _).symm _) $$ [Hs1 HatB_pay2 HO HtS1 HtR1P]
  · isplitr; · iexact HIs1
    isplitr; · iexact HIr1P
    isplitl [Hs1]; · iexact Hs1
    isplitl [HatB_pay2]; · iexact HatB_pay2
    isplitl [HO]; · iexact HO
    isplitl [HtS1]; · iexact HtS1
    isplitr; · iexact HrS1
    isplitl [HtR1P]; · iexact HtR1P
    iexact HrR1P
  iintro ⟨HcS1, HO⟩
  -- chunk 0's send wait: its source rows come back
  iapply (Rounds.wp_wait_rest_token 𝒱₀ ER (xRd m) (c : Thread nD τ) none (κ := K (c, 1))
      (wpE_waitDma2_eq 𝒱₀ (c : Thread nD τ) none Set.univ) (Set.mem_univ _) () (O := 0) (R := 0) (m := 0) (T := ∅)
      ((Nat.zero_add _).trans ((src_credit 0 0).trans (expect_send m c 0).symm))) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq ((rest_send m c 0).trans (by unfold sendPay srcPts; rw [half_peer_odd c hc]))) $$ Hpay
  -- chunk 0's receive wait: this device's landing rows come holding the partner's chunk
  iapply (Rounds.wp_wait_rest_token 𝒱₀ ER (xRd m) (c : Thread nD τ) none (κ := K (c, 3))
      (wpE_waitDma2_eq 𝒱₀ (c : Thread nD τ) none Set.univ) (Set.mem_univ _) () (O := 0) (R := 0) (m := 0) (T := ∅)
      ((Nat.zero_add _).trans ((dst_credit 0).trans (expect_recv m c 0).symm))) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq ((rest_recv m c 0).trans (by unfold recvPay rowPts; rfl))) $$ Hpay
  -- rows 0 .. of the result: what they hold plus the landed chunk 0
  iapply (wp_load 𝒱₀ (c : Thread nD τ) none Set.univ (m := oM) (Finset.subset_univ _)) $$ Hout; iintro Hout
  iapply (wp_load_rect 𝒱₀ (c : Thread nD τ) none Set.univ (m := rM) (r := rRow 0) (Finset.Subset.refl _)) $$ Hl0; iintro Hl0
  iapply (wp_load 𝒱₀ (c : Thread nD τ) none Set.univ (m := oM) (Finset.subset_univ _)) $$ Hout; iintro Hout
  iapply (wp_store 𝒱₀ (c : Thread nD τ) none Set.univ (m := oM) (r := rRow 0) (Mk := Finset.univ) (Finset.subset_univ _)) $$ Hout; iintro Hout
  -- chunk 1's send wait: its source rows come back
  iapply (Rounds.wp_wait_rest_token 𝒱₀ ER (xRd m) (c : Thread nD τ) none (κ := K (c, 2))
      (wpE_waitDma2_eq 𝒱₀ (c : Thread nD τ) none Set.univ) (Set.mem_univ _) () (O := 0) (R := 0) (m := 0) (T := ∅)
      ((Nat.zero_add _).trans ((src_credit 1 0).trans (expect_send m c 1).symm))) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq ((rest_send m c 1).trans (by unfold sendPay srcPts; rw [half_peer_odd c hc]))) $$ Hpay
  -- chunk 1's receive wait: this device's landing rows come holding the partner's chunk
  iapply (Rounds.wp_wait_rest_token 𝒱₀ ER (xRd m) (c : Thread nD τ) none (κ := K (c, 4))
      (wpE_waitDma2_eq 𝒱₀ (c : Thread nD τ) none Set.univ) (Set.mem_univ _) () (O := 0) (R := 0) (m := 0) (T := ∅)
      ((Nat.zero_add _).trans ((dst_credit 1).trans (expect_recv m c 1).symm))) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq ((rest_recv m c 1).trans (by unfold recvPay rowPts; rfl))) $$ Hpay
  -- the four own cells close: their counters at zero are the device's again
  imod (Rounds.cell_close ER (xRd m) (Set.mem_univ (K (c, 1))) (fun h => h) (R := 0 + 1) (duties_later m (sendCell 0 c))) $$ [HatS0] with HzS0
  · isplitr; · iexact HIs0
    iexact HatS0
  imod (Rounds.cell_close ER (xRd m) (Set.mem_univ (K (c, 2))) (fun h => h) (R := 0 + 1) (duties_later m (sendCell 1 c))) $$ [HatS1] with HzS1
  · isplitr; · iexact HIs1
    iexact HatS1
  imod (Rounds.cell_close ER (xRd m) (Set.mem_univ (K (c, 3))) (fun h => h) (R := 0 + 1) (duties_later m (recvCell 0 c))) $$ [HatR0] with HzR0
  · isplitr; · iexact HIr0
    iexact HatR0
  imod (Rounds.cell_close ER (xRd m) (Set.mem_univ (K (c, 4))) (fun h => h) (R := 0 + 1) (duties_later m (recvCell 1 c))) $$ [HatR1] with HzR1
  · isplitr; · iexact HIr1
    iexact HatR1
  -- rows 128 .. of the result: what they hold plus the landed chunk 1
  iapply (wp_load 𝒱₀ (c : Thread nD τ) none Set.univ (m := oM) (Finset.subset_univ _)) $$ Hout; iintro Hout
  iapply (wp_load_rect 𝒱₀ (c : Thread nD τ) none Set.univ (m := rM) (r := rRow 1) (Finset.Subset.refl _)) $$ Hl1; iintro Hl1
  iapply (wp_load 𝒱₀ (c : Thread nD τ) none Set.univ (m := oM) (Finset.subset_univ _)) $$ Hout; iintro Hout
  iapply (wp_store 𝒱₀ (c : Thread nD τ) none Set.univ (m := oM) (r := rRow 1) (Mk := Finset.univ) (Finset.subset_univ _)) $$ Hout; iintro Hout
  beta_reduce
  rw [wp_ret]; imodintro
  iapply Hk
  unfold bodyPost Φ₁ Dat.owesAt Pipeline.owesWithin
  rw [show (dats m ρ 0 c).owed t₀.succ = 0 from rfl]
  isplitl [Hl0 Hl1 HzS0 HzS1 HzR0 HzR1]
  · isplitl [Hl0 Hl1]
    · -- the landing buffer whole again, at the two landed chunks
      ihave Hj := (pointsTo_join (ℓ := (c : Thread nD τ).loc cc0_scratch0) rows_disjoint) $$ [Hl0 Hl1]
      · isplitl [Hl0] <;> iassumption
      iexists _
      unfold scrPts
      rw [← rows_cover]
      iexact Hj
    isplitl [HzS0]; · iexact HzS0
    isplitl [HzS1]; · iexact HzS1
    isplitl [HzR0]; · iexact HzR0
    iexact HzR1
  isplitl [HO]
  · iexists (insert (SemLoc.dma (rS 1), ()) (insert (SemLoc.dma (sS 1), ()) (insert (SemLoc.dma (rS 0), ()) (insert (SemLoc.dma (sS 0), ())
      (insert (SemLoc.reg barS, ()) W)))))
    isplitr; · ipureintro; exact fun _ _ => Or.inl trivial
    iexact HO
  isplitl [Hs0 Hs1 Hxrest]
  · -- the staged block whole again
    ihave H01 := (pointsTo_union (ℓ := (c : Thread nD τ).loc cc0_stg0_0) (src_disjoint 0)).2 $$ [Hs0 Hs1]
    · isplitl [Hs0] <;> iassumption
    ihave Hxw := (pointsTo_split_subset (ℓ := (c : Thread nD τ).loc cc0_stg0_0) (I := (srcM 0 0).view.set ∪ (srcM 1 0).view.set) (S := Finset.univ)
        (Finset.subset_univ _)).2 $$ [H01 Hxrest]
    · isplitl [H01] <;> iassumption
    iexists _; isplitr; · (ipureintro; rfl)
    iexact Hxw
  iexists _; isplitr; · ipureintro; exact out_of_half m c 1 (half_odd c hc) g1
  iexact Hout

/-- The body on any device: one of the two mirror branches, by the parity of the device. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rcases Nat.mod_two_eq_zero_or_one c.val with hc | hc
  · exact body_even m ρ K c hc Kt
  · exact body_odd m ρ K c hc Kt

end Body

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.KernelIdeal.Xchg.body_obligation' depends on axioms: [propext, Classical.choice, Quot.sound] -/
#guard_msgs in #print axioms body_obligation

end Cert.KernelIdeal.Xchg

end
-- ==== Proof.Launch.lean ====
/-
  The launch of the exchange: from a memory with every counter at zero to each device's body at its one grid point,
  and from the last point back to the final arrays.

  The launch's ghost element holds, beside the pipeline's own, round 0 of all twenty cells of the exchange (five per
  device) and one duty token per cell. Under one update for all four devices the twenty cells' invariants are
  allocated from the counters at zero, and the tokens are dealt to the devices that PAY the duties: a device's barrier
  token and its two receive tokens go to its partner, its two send tokens stay with it. Each device is owed one unit
  on its barrier cell and one chunk's credit on each receive cell, all by its partner; that is its launch credit.
-/
import proofs.«900307_g7700000000000308_dist_rs_v7x_xy2x2_y_m256_n256_f32_1_alg».proof.Proof.Sched
import Idealize.ShloMosaic.Lib.Pipeline.Launch
import Idealize.ShloMosaic.Lib.Pipeline.Kit
import Idealize.ShloMosaic.Lib.Tactic

noncomputable section

namespace Cert.KernelIdeal.Xchg

open Cert.KernelIdeal Cert.KernelIdeal.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost element and what it deals each device -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The exchange's twenty cells. -/
def xCells : Finset (GSem nD τ sig) := Finset.univ.map ⟨kcell, kcell_injective⟩

/-- One duty token per cell, as minted: the cell's round-0 duty. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own five cells. -/
def toks (c : Dev nD) : sProp 𝕄 :=
  iprop(dutyTok ER (barCell c) 0 () ∗ dutyTok ER (sendCell 0 c) 0 () ∗ dutyTok ER (sendCell 1 c) 0 ()
    ∗ dutyTok ER (recvCell 0 c) 0 () ∗ dutyTok ER (recvCell 1 c) 0 ())

/-- What the launch element deals device `c`: round 0 of its five cells, its positions and marks there, its cells' tokens. -/
def G (c : Dev nD) : sProp 𝕄 :=
  iprop((bigSep Finset.univ fun k : Fin 5 => roundState ER (xRd m) (kcell (c, k)) 0)
    ∗ (bigSep Finset.univ fun k : Fin 5 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (recvCell 0 c) 0 ∗ semVal (recvCell 1 c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HR0, HR1⟩, HB⟩
  isplitl [HB]; · iexact HB
  isplitl [HS0]; · iexact HS0
  isplitl [HS1]; · iexact HS1
  isplitl [HR0] <;> iassumption

/-! ## The global step: the twenty cells' invariants allocated, the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read: all twenty invariants at their names, all twenty cells marked at round 0. -/
def records (K : Dev nD × Fin 5 → ℕ) : sProp 𝕄 :=
  iprop((bigSep Finset.univ fun ck : Dev nD × Fin 5 => cellInv ER (xRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (xRd m) (K ck) (kcell ck) : sProp 𝕄)) ⊢ cellInv ER (xRd m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` PAYS: its partner's barrier duty (its signal), its partner's two receive duties
    (its two copies landing there), its own two send duties (the same copies having read their source). -/
def payToks (c : Dev nD) : sProp 𝕄 :=
  iprop(dutyTok ER (barCell (peer c)) 0 () ∗ dutyTok ER (recvCell 0 (peer c)) 0 () ∗ dutyTok ER (recvCell 1 (peer c)) 0 ()
    ∗ dutyTok ER (sendCell 0 c) 0 () ∗ dutyTok ER (sendCell 1 c) 0 ())
/-- What stays with device `c` alone: its positions on its five cells, and those tokens. -/
def linear (c : Dev nD) : sProp 𝕄 :=
  iprop((atPos ER (barCell c) 0 ∅ 0 ∗ atPos ER (sendCell 0 c) 0 ∅ 0 ∗ atPos ER (sendCell 1 c) 0 ∅ 0
      ∗ atPos ER (recvCell 0 c) 0 ∅ 0 ∗ atPos ER (recvCell 1 c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaR0, HaR1⟩, HtB, HtR0, HtR1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtB]; · iexact HtB
  isplitl [HtR0]; · iexact HtR0
  isplitl [HtR1]; · iexact HtR1
  isplitl [HtS0]; · iexact HtS0
  iexact HtS1

omit [FloatOps F] in
/-- The tokens dealt across each pair: a device's barrier token and its two receive tokens go to its partner (the partner
    map is an involution, so each family is the same family read at the partner); its send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell 0 c) 0 () : sProp 𝕄)),
    bigSep_univ_equiv pairing (fun c : Dev nD => (dutyTok ER (recvCell 1 c) 0 () : sProp 𝕄))]
  iintro ⟨HB, HS0, HS1, HR0, HR1⟩
  isplitl [HB]; · iexact HB
  isplitl [HR0]; · iexact HR0
  isplitl [HR1]; · iexact HR1
  isplitl [HS0]; · iexact HS0
  iexact HS1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (xRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: every device's own and unscoped semaphores at zero and its share of the launch element, all
    devices at once, become every device's starting ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the other devices owe a device's cells at launch -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff (k : Fin 2) {a b : Dev nD} : Iff (recvCell k a = recvCell k b) (a = b) :=
  ⟨fun h => Fin.ext (congrArg (fun g : GSem nD τ sig => g.1.1.val) h), fun h => h ▸ rfl⟩

omit [FloatOps F] in
/-- Device `d` owes device `c`'s barrier cell a unit exactly when it is `c`'s partner; -/
theorem owed_bar (d c : Dev nD) : O₀ d (barCell c) () = if d = peer c then 1 else 0 := by
  unfold O₀ O₁
  rw [Pi.add_apply, Finsupp.add_apply, Pi.add_apply, Finsupp.add_apply,
    tallyAt_ne_cell (fun h => rS_ne_bar 1 (congrArg Prod.snd h).symm), tallyAt_ne_cell (fun h => rS_ne_bar 0 (congrArg Prod.snd h).symm),
    Finsupp.zero_apply, Nat.add_zero, Nat.zero_add, tallyAt_apply]
  by_cases h : d = peer c
  · subst h; rw [peer_peer, if_pos ⟨rfl, rfl⟩, if_pos rfl]
  · rw [if_neg (fun ⟨h1, _⟩ => h (by rw [bar_eq_iff.mp h1, peer_peer])), if_neg h]

omit [FloatOps F] in
/-- and each of `c`'s receive cells a chunk's credit exactly then. -/
theorem owed_recv0 (d c : Dev nD) : O₀ d (recvCell 0 c) () = if d = peer c then N else 0 := by
  unfold O₀ O₁
  rw [Pi.add_apply, Finsupp.add_apply, Pi.add_apply, Finsupp.add_apply,
    tallyAt_ne_cell (fun h => rS1_ne_rS0 (congrArg Prod.snd h).symm) (g := recvCell 1 (peer d)), tallyAt_ne_cell (fun h => rS_ne_bar 0 (congrArg Prod.snd h)) (g := barCell (peer d)),
    Finsupp.zero_apply, Nat.zero_add, Nat.add_zero, tallyAt_apply]
  by_cases h : d = peer c
  · subst h; rw [peer_peer, if_pos ⟨rfl, rfl⟩, if_pos rfl]
  · rw [if_neg (fun ⟨h1, _⟩ => h (by rw [(recv_eq_iff 0).mp h1, peer_peer])), if_neg h]

omit [FloatOps F] in
theorem owed_recv1 (d c : Dev nD) : O₀ d (recvCell 1 c) () = if d = peer c then N else 0 := by
  unfold O₀ O₁
  rw [Pi.add_apply, Finsupp.add_apply, Pi.add_apply, Finsupp.add_apply,
    tallyAt_ne_cell (fun h => rS1_ne_rS0 (congrArg Prod.snd h)) (g := recvCell 0 (peer d)), tallyAt_ne_cell (fun h => rS_ne_bar 1 (congrArg Prod.snd h)) (g := barCell (peer d)),
    Finsupp.zero_apply, Nat.add_zero, Nat.add_zero, tallyAt_apply]
  by_cases h : d = peer c
  · subst h; rw [peer_peer, if_pos ⟨rfl, rfl⟩, if_pos rfl]
  · rw [if_neg (fun ⟨h1, _⟩ => h (by rw [(recv_eq_iff 1).mp h1, peer_peer])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv0 (c : Dev nD) :
    tallyOn (recvCell 0 c) (launchCredit (Pipeline.owing O₀) 0 (recvCell 0 c)) = (tallyAt (recvCell 0 c) () N : CellTallies nD τ sig Unit) := by
  unfold tallyAt; refine congrArg _ (Finsupp.ext fun u => ?_); cases u
  rw [Pipeline.launchCredit_owing, Finsupp.single_eq_same, Finset.sum_congr rfl fun d _ => owed_recv0 d c,
    Finset.sum_ite_eq' Finset.univ (peer c) fun _ => N, if_pos (Finset.mem_univ _)]

omit [FloatOps F] in
theorem launch_recv1 (c : Dev nD) :
    tallyOn (recvCell 1 c) (launchCredit (Pipeline.owing O₀) 0 (recvCell 1 c)) = (tallyAt (recvCell 1 c) () N : CellTallies nD τ sig Unit) := by
  unfold tallyAt; refine congrArg _ (Finsupp.ext fun u => ?_); cases u
  rw [Pipeline.launchCredit_owing, Finsupp.single_eq_same, Finset.sum_congr rfl fun d _ => owed_recv1 d c,
    Finset.sum_ite_eq' Finset.univ (peer c) fun _ => N, if_pos (Finset.mem_univ _)]

omit [FloatOps F] in
/-- A device's launch credit: its barrier's unit and its two receive cells' credit. -/
theorem creds (c : Dev nD) :
    (Pipeline.launchCred O₀ c : sProp 𝕄)
      ⊢ iprop(cred (tallyAt (barCell c) () 1) ∗ cred (tallyAt (recvCell 0 c) () N) ∗ cred (tallyAt (recvCell 1 c) () N)) := by
  unfold Pipeline.launchCred
  rw [bigSep_univ_at _ (SemLoc.reg barS), launch_bar]
  refine sep_mono_right ?_
  rw [bigSep_erase (i := (SemLoc.dma (rS 0) : SemLoc sig)) (Finset.mem_erase.mpr ⟨rS_ne_bar 0, Finset.mem_univ _⟩), launch_recv0]
  refine sep_mono_right ?_
  rw [← launch_recv1]
  exact bigSep_elim (Finset.mem_erase.mpr ⟨rS1_ne_rS0, Finset.mem_erase.mpr ⟨rS_ne_bar 1, Finset.mem_univ _⟩⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-- Before the point: what the body starts from, and the landing buffer whole at some contents. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [scrPts_eq]; iexact Hr

/-- After the point: the four own semaphores back at zero, the landing buffer back whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, HzS0, HzS1, HzR0, HzR1⟩
  isplitr; · iempintro
  isplitl [HzS0 HzS1 HzR0 HzR1]
  · isplitl [HzS0]; · iexact HzS0
    isplitl [HzS1]; · iexact HzS1
    isplitl [HzR0] <;> iassumption
  iexists f; rw [← scrPts_eq]; iexact Hr

/-- The pipeline's own waits are on staging cells, below everything a device may owe. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- Each window's array after the last point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body at its one point: every weakly fair execution of the program — the partners handshaking on the barrier
    semaphore, then exchanging their two chunks — terminates, and every final state has each device's two arrays at
    the pipeline's final contents. -/
theorem run_main (hbody : ∀ c, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

/-- The result array after the run is what the body left in the result window's staging buffer: the window's one block is
    the whole array, written back at the one point. -/
theorem finalA_out (c : Dev nD) : finalA m ρ c (1 : Fin 2) = outAt m c := by
  unfold finalA
  rw [show cfg0.N = (t₀ : Fin cfg0.N).val + 1 from rfl, (dats m ρ 0 c).arrAt_succ (1 : Fin 2) t₀, if_pos (flush0_1 _)]
  exact Memref.write_access_unit_zero_univ (Elt F) main_v1 (funext fun a => Nat.zero_mul _) _ _ _

/-- info: 'Cert.KernelIdeal.Xchg.run_main' depends on axioms: [propext, Classical.choice, Quot.sound] -/
#guard_msgs in #print axioms run_main

end Cert.KernelIdeal.Xchg

end
-- ==== Proof.Value.lean ====
/-
  The value of the exchange at the ideal instance: what each device's result holds after its body, element by element,
  and that it is the device's column half of the reference's sum.

  Device `c` keeps half `h = c % 2`. Its result starts as its own block's columns `256 h ..`; chunk `k` of its partner
  (rows `128 k ..` of the partner's block at the same columns, landed in rows `128 k ..` of the landing buffer) is then
  added into rows `128 k ..` of the result. Every row lies in exactly one of the two chunks, so element `(r, l)` ends
  as `x_c (0, r, 256 h + l) + x_{peer c} (0, r, 256 h + l)`.
-/
import proofs.«900307_g7700000000000308_dist_rs_v7x_xy2x2_y_m256_n256_f32_1_alg».proof.Proof.Sched
import proofs.«900307_g7700000000000308_dist_rs_v7x_xy2x2_y_m256_n256_f32_1_alg».proof.Proof.RefSide
import proofs.«900307_g7700000000000308_dist_rs_v7x_xy2x2_y_m256_n256_f32_1_alg».proof.Proof.Spec
import Idealize.ShloMosaic.Lib.Pipeline.Value
import Idealize.ShloMosaic.Lib.ValueIdx
import Idealize.ShloMosaic.PureOps.Ideal.Laws

noncomputable section

namespace Cert.KernelIdeal.Xchg

open Cert.KernelIdeal Cert.KernelIdeal.Gen Cert.RS

open Idealize.ShloMosaic
open Idealize.ShloMosaic.TcCoe
open Idealize.ShloMosaic.ValueIdx
open Idealize.SL.Sem

variable (m : (ℓ : Loc nD τ sig) → Buf (Elt Ideal) ℓ)

/-! ## The staged block is the device's argument array -/

/-- The argument window's one block is the whole array. -/
theorem xstg_eq (c : Dev nD) : xstg (F := Ideal) m c = m ((c : Thread nD τ).loc main_arg0) :=
  Memref.read_access_unit_zero (Elt Ideal) main_arg0 (funext fun a => Nat.zero_mul _) _ _

/-! ## Reads and writes at an index, over variables -/

/-- The device's first store: its own block's columns `256 h ..`, the unit axis dropped. -/
theorem own_apply (c : Dev nD) (i : S256x256.Idx) :
    own (F := Ideal) m c i = xstg (F := Ideal) m c (colIdx (half c) i) := by
  unfold own k0_pay1
  show shapeCast S256x256 _ _ i = _
  refine (shapeCast_apply _ _ i (ix3 (⟨0, Nat.one_pos⟩ : Fin 1) (i 0) (i 1)) ?_).trans ?_
  · rw [Shape.rowMajor_val_three, Shape.rowMajor_val_two]
    show (0 * 256 + (i 0).val) * 256 + (i 1).val = (i 0).val * 256 + (i 1).val
    omega
  · show xstg (F := Ideal) m c _ = xstg (F := Ideal) m c _
    refine congrArg (xstg (F := Ideal) m c) (funext fun a => Fin.ext ?_)
    match a with
    | ⟨0, _⟩ => rfl
    | ⟨1, _⟩ => show 0 + 1 * (i 0).val = (i 0).val; omega
    | ⟨2, _⟩ => show 256 * (half c).val + 1 * (i 1).val = 256 * (half c).val + (i 1).val; omega

/-- Chunk `k`'s source read at `(r, l)`: the block at `(0, 128 k + r, 256 h + l)`. -/
theorem src_read (k h : Fin 2) (f : (cc0_stg0_0 : Ref sig .tc).ty.Contents (Elt Ideal)) (y : S128x256.Idx) :
    (srcM k h).view.read (Elt Ideal) f y
      = f (ix3 (⟨0, Nat.one_pos⟩ : Fin 1) (⟨128 * k.val + (y 0).val, by have := (y 0).isLt; have : (y 0).val < 128 := this; have := k.isLt; omega⟩ : Fin 256)
          (⟨256 * h.val + (y 1).val, by have : (y 1).val < 256 := (y 1).isLt; have := h.isLt; omega⟩ : Fin 512)) := by
  have hc : S1x128x256.ShapeCasts S128x256 := by decide
  have e := Memref.read_squeeze_slice (Val := Elt Ideal) (xM : Memref sig .tc .vmem S1x256x512 .f32)
    (Rect.unit (s := S1x256x512) ![0, 128 * k.val, 256 * h.val] S1x128x256.size (src_inb k h)) (fun _ => rfl)
    squeezes_S1x128x256_S128x256 hc f
  refine (congrFun e y).trans ?_
  refine (shapeCast_apply _ _ y (ix3 (⟨0, Nat.one_pos⟩ : Fin 1) (y 0) (y 1)) ?_).trans ?_
  · rw [Shape.rowMajor_val_three, Shape.rowMajor_val_two]
    show (0 * 128 + (y 0).val) * 256 + (y 1).val = (y 0).val * 256 + (y 1).val
    omega
  · show f _ = f _
    refine congrArg f (funext fun a => Fin.ext ?_)
    match a with
    | ⟨0, _⟩ => rfl
    | ⟨1, _⟩ => show 128 * k.val + 1 * (y 0).val = 128 * k.val + (y 0).val; omega
    | ⟨2, _⟩ => show 256 * h.val + 1 * (y 1).val = 256 * h.val + (y 1).val; omega

/-- Rows `128 k ..` of the landing buffer, read back after the partner's chunk landed there, are that chunk. -/
theorem landed_read (k : Fin 2) (c : Dev nD) :
    (rM : Memref sig .tc .vmem S256x256 .f32).view.readAt (Elt Ideal) (rRow k).toLoadRect (landed (F := Ideal) m k c)
      = sent (F := Ideal) m k (peer c) :=
  View.read_write_univ _ _

/-- Adding chunk `k`, at an element of rows `128 k ..`: the old element plus the landed one. -/
theorem addRows_emb (k : Fin 2) (c : Dev nD) (o : (cc0_stg1_0 : Ref sig .tc).ty.Contents (Elt Ideal)) (y : S128x256.Idx) :
    addRows (F := Ideal) m k c o ((rRow k).emb y)
      = (show EReal from o ((rRow k).emb y)) + (show EReal from sent (F := Ideal) m k (peer c) y) := by
  unfold addRows
  refine (View.read_slice_write_emb (v := (oM : Memref sig .tc .vmem S256x256 .f32).view) (rRow k) o _ (Finset.mem_univ y)).trans ?_
  unfold k0_pay3
  show addf (shapeCast S128x256 _ _) _ y = _
  rw [landed_read, shapeCast_self]
  rfl

/-- Adding chunk `k`, at an element of another row: unchanged. -/
theorem addRows_out (k : Fin 2) (c : Dev nD) (o : (cc0_stg1_0 : Ref sig .tc).ty.Contents (Elt Ideal)) (i : S256x256.Idx)
    (h : (i 0).val < 128 * k.val ∨ 128 * k.val + 128 ≤ (i 0).val) :
    addRows (F := Ideal) m k c o i = o i := by
  unfold addRows
  refine View.write_of_not_mem (v := (oM : Memref sig .tc .vmem S256x256 .f32).view.slice (rRow k)) o _ Finset.univ ?_
  intro hi
  have hs : ((oM : Memref sig .tc .vmem S256x256 .f32).access (rRow k) : View sig .tc _ _ _).setOn Finset.univ = (rRow k).set :=
    View.set_slice_whole cc0_stg1_0 _
  rw [hs, Rect.mem_set_unit] at hi
  have h0 : 128 * k.val ≤ (i 0).val ∧ (i 0).val < 128 * k.val + 128 := hi 0
  omega

/-- Adding chunk `k`, at an element `(r, l)` of rows `128 k ..`: the old element plus the partner's block at `(0, r, 256 h + l)`. -/
theorem addRows_in (k : Fin 2) (c : Dev nD) (o : (cc0_stg1_0 : Ref sig .tc).ty.Contents (Elt Ideal)) (i : S256x256.Idx)
    (h : 128 * k.val ≤ (i 0).val ∧ (i 0).val < 128 * k.val + 128) :
    addRows (F := Ideal) m k c o i
      = (show EReal from o i) + (show EReal from xstg (F := Ideal) m (peer c) (colIdx (half c) i)) := by
  have hi1 : (i 1).val < 256 := (i 1).isLt
  obtain ⟨y, rfl⟩ : ∃ y : S128x256.Idx, (rRow k).emb y = i :=
    ⟨ix2 (⟨(i 0).val - 128 * k.val, by omega⟩ : Fin 128) (⟨(i 1).val, hi1⟩ : Fin 256), funext fun a => Fin.ext (by
      match a with
      | ⟨0, _⟩ => show 128 * k.val + 1 * ((i 0).val - 128 * k.val) = (i 0).val; omega
      | ⟨1, _⟩ => show 0 + 1 * (i 1).val = (i 1).val; omega)⟩
  rw [addRows_emb]
  refine congrArg (fun t : EReal => (show EReal from o ((rRow k).emb y)) + t) ?_
  unfold sent
  rw [peer_peer, src_read]
  refine congrArg (xstg (F := Ideal) m (peer c)) (funext fun a => Fin.ext ?_)
  match a with
  | ⟨0, _⟩ => rfl
  | ⟨1, _⟩ => show 128 * k.val + (y 0).val = 128 * k.val + 1 * (y 0).val; omega
  | ⟨2, _⟩ => show 256 * (half c).val + (y 1).val = 256 * (half c).val + (0 + 1 * (y 1).val); omega

/-! ## The result, element by element -/

/-- Element `(r, l)` of device `c`'s result: its own block and its partner's at `(0, r, 256 h + l)`, added. -/
theorem outAt_apply (c : Dev nD) (i : S256x256.Idx) :
    outAt (F := Ideal) m c i
      = (show EReal from xstg (F := Ideal) m c (colIdx (half c) i)) + (show EReal from xstg (F := Ideal) m (peer c) (colIdx (half c) i)) := by
  unfold outAt
  by_cases hr : (i 0).val < 128
  · -- a row of chunk 0: chunk 1 leaves it alone
    rw [addRows_out m 1 c _ i (Or.inl (by show (i 0).val < 128 * 1; omega)),
      addRows_in m 0 c _ i ⟨by show 128 * 0 ≤ (i 0).val; omega, by show (i 0).val < 128 * 0 + 128; omega⟩, own_apply]
  · -- a row of chunk 1: chunk 0 left it alone
    have hi0 : (i 0).val < 256 := (i 0).isLt
    rw [addRows_in m 1 c _ i ⟨by show 128 * 1 ≤ (i 0).val; omega, by show (i 0).val < 128 * 1 + 128; omega⟩,
      addRows_out m 0 c _ i (Or.inr (by show 128 * 0 + 128 ≤ (i 0).val; omega)), own_apply]

/-! ## The result is the device's column half of the reference's sum -/

theorem out_block
    (m' : (ℓ : Loc Cert.ReferenceIdeal.nD Cert.ReferenceIdeal.τ Cert.ReferenceIdeal.sig) → Buf (Elt Ideal) ℓ)
    (hagree : ∀ c : Dev nD,
      m ((c.tc : Thread nD τ).loc main_arg0) = Layout.blockN ⟨3, ![1, 256, 512]⟩ ⟨3, ![2, 256, 512]⟩ (Layout.meshBlock [2, 2] ![[1], [], []] c) (m' (((0 : Dev Cert.ReferenceIdeal.nD).tc : Thread Cert.ReferenceIdeal.nD Cert.ReferenceIdeal.τ).loc Cert.ReferenceIdeal.main_arg0)))
    (c : Dev nD) :
    outAt (F := Ideal) m c
      = Layout.blockN ⟨2, ![256, 256]⟩ ⟨2, ![256, 512]⟩ (Layout.meshBlock [2, 2] ![[], [1]] c)
          (Cert.ReferenceIdeal.Read.val_main_v0 (F := Ideal) (m' (((0 : Dev Cert.ReferenceIdeal.nD).tc : Thread Cert.ReferenceIdeal.nD Cert.ReferenceIdeal.τ).loc Cert.ReferenceIdeal.main_arg0))) := by
  funext i
  rw [outAt_apply, xstg_eq, xstg_eq, hagree c, hagree (peer c)]
  exact congrFun (Cert.RS.bridge _ c) i

/-- info: 'Cert.KernelIdeal.Xchg.out_block' depends on axioms: [propext, Classical.choice, Quot.sound] -/
#guard_msgs in #print axioms out_block

end Cert.KernelIdeal.Xchg

end
-- ==== Proof.SchedK.lean ====
/-
  The exchange of this reduce-scatter, as a protocol between the four devices of the two-by-two mesh.

  Device `c` holds a block `x_c : [1, 256, 512]` and keeps the column half `half c` of the sum over the two blocks of its
  mesh column pair `{c, peer c}`. It first copies its own columns of that half into its result, then tells its partner
  (one unit on the partner's barrier semaphore) that its landing buffer exists, waits for the same word from the
  partner, sends the partner the OTHER column half of its block in two chunks of 128 rows (chunk `k` completes on send
  semaphore `k` here and on receive semaphore `k` there), and after chunk `k`'s two waits adds the 128 landed rows into
  its result.

  Cells, five per device: the barrier cell (one duty, paid by the partner's signal, which hands over the partner's
  landing buffer as its two row halves and the fact that the partner's receive cells are at round 0); send cell `k`
  (one duty, the chunk's source rows of the device's own block, handed back when the copy has read them); receive
  cell `k` (one duty, paid by the partner's copy: the landing buffer's rows `128 k ..` holding the partner's chunk).
  Every cell has one round.
-/
import proofs.«900307_g7700000000000308_dist_rs_v7x_xy2x2_y_m256_n256_f32_1_alg».proof.Proof.Gen.Kernel
import proofs.«900307_g7700000000000308_dist_rs_v7x_xy2x2_y_m256_n256_f32_1_alg».proof.Proof.Gen.Kernel.Skeleton
import proofs.«900307_g7700000000000308_dist_rs_v7x_xy2x2_y_m256_n256_f32_1_alg».proof.Proof.Gen.Kernel.Launch
import proofs.«900307_g7700000000000308_dist_rs_v7x_xy2x2_y_m256_n256_f32_1_alg».proof.Proof.Gen.Kernel.Points
import proofs.«900307_g7700000000000308_dist_rs_v7x_xy2x2_y_m256_n256_f32_1_alg».proof.Proof.Gen.Kernel.Frame
import proofs.«900307_g7700000000000308_dist_rs_v7x_xy2x2_y_m256_n256_f32_1_alg».proof.Proof.Spec
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Xchg

open Cert.Kernel Cert.Kernel.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the exchange's own -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## The partner, as the kernel computes it -/

theorem dev1_eq (c : Dev nD) : (⟨k0_dev1 c, k0_dev1_lt c⟩ : Dev nD) = peer c := Fin.ext (k0_dev1_eq c)
theorem dev2_eq (c : Dev nD) (h) : (⟨k0_dev2 c, k0_dev2_lt c h⟩ : Dev nD) = peer c := Fin.ext (k0_dev2_eq c)
theorem dev3_eq (c : Dev nD) (h) : (⟨k0_dev3 c, k0_dev3_lt c h⟩ : Dev nD) = peer c := Fin.ext (k0_dev3_eq c)
theorem dev4_eq (c : Dev nD) (h) : (⟨k0_dev4 c, k0_dev4_lt c h⟩ : Dev nD) = peer c := Fin.ext (k0_dev4_eq c)
theorem dev5_eq (c : Dev nD) (h) : (⟨k0_dev5 c, k0_dev5_lt c h⟩ : Dev nD) = peer c := Fin.ext (k0_dev5_eq c)

def pairing : Dev nD ≃ Dev nD := ⟨peer, peer, peer_peer, peer_peer⟩

/-! ## The four branch conditions, by the half the device keeps -/

theorem cond1_even (c : Dev nD) (h : c.val % 2 = 0) :
    Scalar.cmpi .ne (Scalar.extui (Scalar.cmpi .eq (Scalar.remsi (Scalar.divsi (Dev.word c) 1#32) 2#32) 0#32) : BitVec 32) 0#32 = 1#1 := by
  revert c; decide
theorem cond2_even (c : Dev nD) (h : c.val % 2 = 0) :
    ¬ Scalar.cmpi .ne (Scalar.extui (Scalar.cmpi .eq (Scalar.remsi (Scalar.divsi (Dev.word c) 1#32) 2#32) 1#32) : BitVec 32) 0#32 = 1#1 := by
  revert c; decide
theorem cond3_even (c : Dev nD) (h : c.val % 2 = 0) : k0_cond3 c = 1#1 := by revert c; decide
theorem cond4_even (c : Dev nD) (h : c.val % 2 = 0) : ¬ k0_cond4 c = 1#1 := by revert c; decide
theorem cond1_odd (c : Dev nD) (h : c.val % 2 = 1) :
    ¬ Scalar.cmpi .ne (Scalar.extui (Scalar.cmpi .eq (Scalar.remsi (Scalar.divsi (Dev.word c) 1#32) 2#32) 0#32) : BitVec 32) 0#32 = 1#1 := by
  revert c; decide
theorem cond2_odd (c : Dev nD) (h : c.val % 2 = 1) :
    Scalar.cmpi .ne (Scalar.extui (Scalar.cmpi .eq (Scalar.remsi (Scalar.divsi (Dev.word c) 1#32) 2#32) 1#32) : BitVec 32) 0#32 = 1#1 := by
  revert c; decide
theorem cond3_odd (c : Dev nD) (h : c.val % 2 = 1) : ¬ k0_cond3 c = 1#1 := by revert c; decide
theorem cond4_odd (c : Dev nD) (h : c.val % 2 = 1) : k0_cond4 c = 1#1 := by revert c; decide

/-! ## The memrefs and cells -/

abbrev xM : Memref sig .tc .vmem S1x256x512 .f32 := Memref.whole cc0_stg0_0
abbrev oM : Memref sig .tc .vmem S256x256 .f32 := Memref.whole cc0_stg1_0
abbrev rM : Memref sig .tc .vmem S256x256 .f32 := Memref.whole cc0_scratch0

theorem src_inb (k h : Fin 2) : ∀ a, (![0, 128 * k.val, 256 * h.val] : Fin 3 → Nat) a + S1x128x256.size a ≤ S1x256x512.size a := by
  revert k h; decide
theorem dst_inb (k : Fin 2) : ∀ a, (![128 * k.val, 0] : Fin 2 → Nat) a + S128x256.size a ≤ S256x256.size a := by
  revert k; decide

/-- Chunk `k`'s source: rows `128 k ..` of the block, at the columns of half `h` (the RECEIVER's half). -/
abbrev srcM (k h : Fin 2) : Memref sig .tc .vmem S128x256 .f32 :=
  (xM.slice (Rect.unit (s := S1x256x512) ![0, 128 * k.val, 256 * h.val] S1x128x256.size (src_inb k h)) (fun _ => rfl)).squeeze S128x256 squeezes_S1x128x256_S128x256

/-- Chunk `k`'s destination: rows `128 k ..` of the landing buffer. -/
abbrev dstM (k : Fin 2) : Memref sig .tc .vmem S128x256 .f32 :=
  rM.slice (Rect.unit (s := S256x256) ![128 * k.val, 0] S128x256.size (dst_inb k)) (fun _ => rfl)

abbrev barS : Sem sig := (SemArray.scalar (sig.barrier 0 rfl) : Sems sig S_).sem
abbrev sS : Fin 2 → DmaSem sig
  | 0 => ((cc0_scratch1.slice (Rect.unit (s := S2) ![0] S1.size inb_S2_S1_0)).squeeze S_ squeezes_S1_S_).sem
  | 1 => ((cc0_scratch1.slice (Rect.unit (s := S2) ![1] S1.size inb_S2_S1_1)).squeeze S_ squeezes_S1_S_).sem
abbrev rS : Fin 2 → DmaSem sig
  | 0 => ((cc0_scratch2.slice (Rect.unit (s := S2) ![0] S1.size inb_S2_S1_0)).squeeze S_ squeezes_S1_S_).sem
  | 1 => ((cc0_scratch2.slice (Rect.unit (s := S2) ![1] S1.size inb_S2_S1_1)).squeeze S_ squeezes_S1_S_).sem

abbrev barCell (c : Dev nD) : GSem nD τ sig := ((c : Thread nD τ), .reg barS)
abbrev sendCell (k : Fin 2) (c : Dev nD) : GSem nD τ sig := ((c : Thread nD τ), .dma (sS k))
abbrev recvCell (k : Fin 2) (c : Dev nD) : GSem nD τ sig := ((c : Thread nD τ), .dma (rS k))

/-- The kernel's own (scoped) semaphores, as the launch indexes them; -/
abbrev osem : Fin 4 → SemLoc sig := fun | 0 => .dma (sS 0) | 1 => .dma (sS 1) | 2 => .dma (rS 0) | 3 => .dma (rS 1)
/-- all five of the exchange's, as this proof indexes them: barrier, the two send, the two receive. -/
abbrev csem : Fin 5 → SemLoc sig := fun | 0 => .reg barS | 1 => .dma (sS 0) | 2 => .dma (sS 1) | 3 => .dma (rS 0) | 4 => .dma (rS 1)
abbrev kcell (ck : Dev nD × Fin 5) : GSem nD τ sig := ((ck.1 : Thread nD τ), csem ck.2)

/-- A chunk's credit. -/
abbrev N : ℕ := ((dstM 0).view).dmaCredit
theorem N_pos : 0 < N := View.dmaCredit_pos _ (by decide)

/-! ## Contents -/

/-- Device `c`'s block as staged. -/
def xstg (c : Dev nD) : (cc0_stg0_0 : Ref sig .tc).ty.Contents (Elt F) :=
  (win0_0.blk t0_0).view.read (Elt F) (m ((c : Thread nD τ).loc main_arg0))

/-- Chunk `k` as device `d` sends it: rows `128 k ..` of its block at the columns of its partner's half. -/
def sent (k : Fin 2) (d : Dev nD) : S128x256.Idx → Elt F .f32 := (srcM k (half (peer d))).view.read (Elt F) (xstg m d)

/-- The landing buffer of device `c` once chunk `k` of its partner has landed, on the chunk's rows (elsewhere unread). -/
def landed (k : Fin 2) (c : Dev nD) : Buf (Elt F) ((rM : Memref sig .tc .vmem S256x256 .f32).view.loc (c : Thread nD τ)) :=
  (dstM k).view.write (Elt F) (View.junk _) (sent m k (peer c)) Finset.univ

def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f
def rowPts (k : Fin 2) (c : Dev nD) (f : Buf (Elt F) ((dstM k).view.loc (c : Thread nD τ))) : sProp 𝕄 :=
  (dstM k).view.loc (c : Thread nD τ) ↦[(dstM k).view.set]{fullShare} f
def srcPts (k : Fin 2) (c : Dev nD) : sProp 𝕄 :=
  (srcM k (half (peer c))).view.loc (c : Thread nD τ) ↦[(srcM k (half (peer c))).view.set]{fullShare} xstg m c
def xPts (c : Dev nD) : sProp 𝕄 :=
  (xM : Memref sig .tc .vmem S1x256x512 .f32).view.loc (c : Thread nD τ) ↦[(xM : Memref sig .tc .vmem S1x256x512 .f32).view.set]{fullShare} xstg m c

omit [FloatOps F] in
instance scrPts_storable (c : Dev nD) (f) : BI.Storable (upEmb : UEmb _ 𝕄) (scrPts (F := F) c f) := by unfold scrPts; infer_instance
omit [FloatOps F] in
instance rowPts_storable (k : Fin 2) (c : Dev nD) (f) : BI.Storable (upEmb : UEmb _ 𝕄) (rowPts (F := F) k c f) := by unfold rowPts; infer_instance
omit [FloatOps F] in
instance srcPts_storable (k : Fin 2) (c : Dev nD) : BI.Storable (upEmb : UEmb _ 𝕄) (srcPts (F := F) m k c) := by unfold srcPts; infer_instance

/-! ## The landing buffer is its two row halves -/

omit [FloatOps F] in
theorem scr_set : (rM : Memref sig .tc .vmem S256x256 .f32).view.set = Finset.univ := View.set_whole _
omit [FloatOps F] in
theorem row_set (k : Fin 2) : (dstM k).view.set = (Rect.unit (s := S256x256) ![128 * k.val, 0] S128x256.size (dst_inb k)).set :=
  View.set_slice_whole cc0_scratch0 _
omit [FloatOps F] in
theorem rows_disjoint : Disjoint (dstM 0).view.set (dstM 1).view.set := by
  rw [row_set, row_set]; exact Rect.unit_disjoint (0 : Fin 2) (Or.inl (by decide))
omit [FloatOps F] in
theorem rows_cover : (dstM 0).view.set ∪ (dstM 1).view.set = (rM : Memref sig .tc .vmem S256x256 .f32).view.set := by
  rw [scr_set, row_set, row_set]
  ext i
  simp only [Finset.mem_union, Rect.mem_set_unit, Finset.mem_univ, iff_true]
  have h0 : (i 0).val < 256 := (i 0).isLt
  have h1 : (i 1).val < 256 := (i 1).isLt
  by_cases h : (i 0).val < 128
  · left; intro a; fin_cases a
    · exact ⟨Nat.zero_le _, by show (i 0).val < 0 + 128; omega⟩
    · exact ⟨Nat.zero_le _, by show (i 1).val < 0 + 256; omega⟩
  · right; intro a; fin_cases a
    · exact ⟨by show 128 ≤ (i 0).val; omega, by show (i 0).val < 128 + 128; omega⟩
    · exact ⟨Nat.zero_le _, by show (i 1).val < 0 + 256; omega⟩

omit [FloatOps F] in
/-- The landing buffer held whole is its two row halves held, at the same contents. -/
theorem scr_rows (c : Dev nD) (f : Buf (Elt F) ((rM : Memref sig .tc .vmem S256x256 .f32).view.loc (c : Thread nD τ))) :
    scrPts c f ⊣⊢ iprop(rowPts 0 c f ∗ rowPts 1 c f) := by
  unfold scrPts rowPts
  rw [← rows_cover]
  exact pointsTo_union rows_disjoint

/-! ## The schedule -/

/-- What the partner's signal hands device `c`: the partner's landing buffer, as its two row halves at some contents,
    and that the partner's two receive cells are at round 0. -/
def barPay (c : Dev nD) : sProp 𝕄 :=
  iprop((∃ f, rowPts 0 (peer c) f) ∗ (∃ f, rowPts 1 (peer c) f) ∗ reached ER (recvCell 0 (peer c)) 0 ∗ reached ER (recvCell 1 (peer c)) 0)
def recvPay (k : Fin 2) (c : Dev nD) : sProp 𝕄 := rowPts k c (landed m k c)
def sendPay (k : Fin 2) (c : Dev nD) : sProp 𝕄 := srcPts m k c

abbrev IsBar (g : GSem nD τ sig) : Prop := g.1.2 = .tc ∧ g.2 = .reg barS
abbrev IsXfer (g : GSem nD τ sig) : Prop := g.1.2 = .tc ∧ (g.2 = .dma (sS 0) ∨ g.2 = .dma (sS 1) ∨ g.2 = .dma (rS 0) ∨ g.2 = .dma (rS 1))

/-- One round, round 0, one duty a cell: a barrier cell's is one unit; a send or receive cell's the chunk's credit. -/
def xRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma (rS 0) then recvPay m 0 g.1.1
    else if g.2 = .dma (rS 1) then recvPay m 1 g.1.1
    else if g.2 = .dma (sS 0) then sendPay m 0 g.1.1
    else if g.2 = .dma (sS 1) then sendPay m 1 g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m).payload g r d) := by
  show BI.Storable upEmb (if g.2 = .reg barS then barPay g.1.1
    else if g.2 = .dma (rS 0) then recvPay m 0 g.1.1
    else if g.2 = .dma (rS 1) then recvPay m 1 g.1.1
    else if g.2 = .dma (sS 0) then sendPay m 0 g.1.1
    else if g.2 = .dma (sS 1) then sendPay m 1 g.1.1
    else iprop(emp))
  unfold barPay recvPay sendPay
  (repeat' split) <;> infer_instance

section Tables
variable (c : Dev nD)

theorem sS_ne_bar (k : Fin 2) : (SemLoc.dma (sS k) : SemLoc sig) ≠ .reg barS := fun h => by cases h
theorem rS_ne_bar (k : Fin 2) : (SemLoc.dma (rS k) : SemLoc sig) ≠ .reg barS := fun h => by cases h
theorem sS_ne_rS (k k' : Fin 2) : (SemLoc.dma (sS k) : SemLoc sig) ≠ .dma (rS k') := by revert k k'; decide
theorem rS_ne_sS (k k' : Fin 2) : (SemLoc.dma (rS k) : SemLoc sig) ≠ .dma (sS k') := by revert k k'; decide
theorem sS1_ne_sS0 : (SemLoc.dma (sS 1) : SemLoc sig) ≠ .dma (sS 0) := by decide
theorem rS1_ne_rS0 : (SemLoc.dma (rS 1) : SemLoc sig) ≠ .dma (rS 0) := by decide

theorem isXfer_send : ∀ k : Fin 2, IsXfer (sendCell k c)
  | 0 => ⟨rfl, .inl rfl⟩
  | 1 => ⟨rfl, .inr (.inl rfl)⟩
theorem isXfer_recv : ∀ k : Fin 2, IsXfer (recvCell k c)
  | 0 => ⟨rfl, .inr (.inr (.inl rfl))⟩
  | 1 => ⟨rfl, .inr (.inr (.inr rfl))⟩

theorem duties_bar : (xRd (F := F) m).duties (barCell c) 0 = {()} := by dsimp only [xRd]; exact if_pos ⟨rfl, .inl ⟨rfl, rfl⟩⟩
theorem duties_send (k : Fin 2) : (xRd (F := F) m).duties (sendCell k c) 0 = {()} := by
  dsimp only [xRd]; exact if_pos ⟨rfl, .inr (isXfer_send c k)⟩
theorem duties_recv (k : Fin 2) : (xRd (F := F) m).duties (recvCell k c) 0 = {()} := by
  dsimp only [xRd]; exact if_pos ⟨rfl, .inr (isXfer_recv c k)⟩
theorem duties_later (g : GSem nD τ sig) : ∀ r, 1 ≤ r → (xRd (F := F) m).duties g r = ∅ :=
  fun r hr => by dsimp only [xRd]; rw [if_neg fun h => by omega]

theorem amount_bar (d : Unit) : (xRd (F := F) m).amount (barCell c) 0 d = 1 := by dsimp only [xRd]; exact if_pos rfl
theorem amount_send (k : Fin 2) (d : Unit) : (xRd (F := F) m).amount (sendCell k c) 0 d = N := by dsimp only [xRd]; exact if_neg (sS_ne_bar k)
theorem amount_recv (k : Fin 2) (d : Unit) : (xRd (F := F) m).amount (recvCell k c) 0 d = N := by dsimp only [xRd]; exact if_neg (rS_ne_bar k)

theorem expect_bar : (xRd (F := F) m).expect (barCell c) 0 = 1 := by
  unfold Schedule.expect Schedule.amountOf; rw [duties_bar, Finset.sum_singleton, amount_bar]
theorem expect_send (k : Fin 2) : (xRd (F := F) m).expect (sendCell k c) 0 = N := by
  unfold Schedule.expect Schedule.amountOf; rw [duties_send, Finset.sum_singleton, amount_send]
theorem expect_recv (k : Fin 2) : (xRd (F := F) m).expect (recvCell k c) 0 = N := by
  unfold Schedule.expect Schedule.amountOf; rw [duties_recv, Finset.sum_singleton, amount_recv]

theorem payload_bar (d : Unit) : (xRd (F := F) m).payload (barCell c) 0 d = barPay c := by dsimp only [xRd]; rw [if_pos rfl]
theorem payload_recv : ∀ (k : Fin 2) (d : Unit), (xRd (F := F) m).payload (recvCell k c) 0 d = recvPay m k c
  | 0, _ => by dsimp only [xRd]; rw [if_neg (rS_ne_bar 0), if_pos rfl]
  | 1, _ => by dsimp only [xRd]; rw [if_neg (rS_ne_bar 1), if_neg rS1_ne_rS0, if_pos rfl]
theorem payload_send : ∀ (k : Fin 2) (d : Unit), (xRd (F := F) m).payload (sendCell k c) 0 d = sendPay m k c
  | 0, _ => by dsimp only [xRd]; rw [if_neg (sS_ne_bar 0), if_neg (sS_ne_rS 0 0), if_neg (sS_ne_rS 0 1), if_pos rfl]
  | 1, _ => by dsimp only [xRd]; rw [if_neg (sS_ne_bar 1), if_neg (sS_ne_rS 1 0), if_neg (sS_ne_rS 1 1), if_neg sS1_ne_sS0, if_pos rfl]

theorem rest_bar : bigSep ((xRd (F := F) m).duties (barCell c) 0 \ ∅) (fun d => (xRd (F := F) m).payload (barCell c) 0 d) = barPay c := by
  rw [Finset.sdiff_empty, duties_bar, bigSep_singleton, payload_bar]
theorem rest_send (k : Fin 2) : bigSep ((xRd (F := F) m).duties (sendCell k c) 0 \ ∅) (fun d => (xRd (F := F) m).payload (sendCell k c) 0 d) = sendPay m k c := by
  rw [Finset.sdiff_empty, duties_send, bigSep_singleton, payload_send]
theorem rest_recv (k : Fin 2) : bigSep ((xRd (F := F) m).duties (recvCell k c) 0 \ ∅) (fun d => (xRd (F := F) m).payload (recvCell k c) 0 d) = recvPay m k c := by
  rw [Finset.sdiff_empty, duties_recv, bigSep_singleton, payload_recv]

end Tables

/-! ## What each device owes at launch; the levels -/

/-- After its signal device `c` still owes its partner's two receive cells a chunk's credit each; -/
def O₁ (c : Dev nD) : CellTallies nD τ sig Unit := tallyAt (recvCell 1 (peer c)) () N + tallyAt (recvCell 0 (peer c)) () N
/-- at launch also the unit of its signal on the partner's barrier cell. -/
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma (rS 0) ∨ g.2 = .dma (rS 1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (k : Fin 2) (c : Dev nD) (u : Unit) : lv (recvCell k c) u = 2 := by
  dsimp only [lv]; rw [if_neg (rS_ne_bar k)]
  exact if_pos (by revert k; decide)
theorem lv_bar (c : Dev nD) (u : Unit) : lv (barCell c) u = 1 := by dsimp only [lv]; rw [if_pos rfl]

theorem O₁_pos {c : Dev nD} {g : GSem nD τ sig} {u : Unit} (h : 0 < O₁ c g u) :
    g = recvCell 1 (peer c) ∨ g = recvCell 0 (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvCell 1 (peer c) ∨ g = recvCell 0 (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    rcases O₁_pos h with h1 | h1
    · exact .inl h1
    · exact .inr (.inl h1)

/-- A wait on a cell at level 0 (a staging cell, a send cell) is below everything a device may owe. -/
theorem mayWait_low (c : Dev nD) (q : DmaSem sig) (hq : (SemLoc.dma q : SemLoc sig) ≠ .dma (rS 0) ∧ (SemLoc.dma q : SemLoc sig) ≠ .dma (rS 1))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq.1 hq.2)])
      (fun g u hg => by
        rcases O₀_pos hg with rfl | rfl | rfl
        · rw [lv_recv]; decide
        · rw [lv_recv]; decide
        · rw [lv_bar]; decide)
  · rw [MayWait_zero]; iintro -; iempintro

/-- At its barrier wait a device owes its partner's receive cells only: they sit above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_recv]; decide
      · rw [lv_recv]; decide)

/-! ## The kernel's result on a device, and the pipeline's proof data -/

abbrev rAll : Rect S256x256 := Rect.unit (s := S256x256) ![0, 0] S256x256.size inb_S256x256_S256x256_0_0
abbrev rRow (k : Fin 2) : Rect S256x256 := Rect.unit (s := S256x256) ![128 * k.val, 0] S128x256.size (dst_inb k)
abbrev rCol (h : Fin 2) : Rect S1x256x512 :=
  Rect.unit (s := S1x256x512) ![0, 0, 256 * h.val] S1x256x256.size (by revert h; decide)

/-- The device's own columns of the half it keeps: what it stores first. -/
def own (c : Dev nD) : (cc0_stg1_0 : Ref sig .tc).ty.Contents (Elt F) :=
  k0_pay1 ((xM : Memref sig .tc .vmem S1x256x512 .f32).view.readAt (Elt F) (rCol (half c)).toLoadRect (xstg m c))

/-- Rows `128 k ..` of a result `o` with the landed chunk `k` added. -/
def addRows (k : Fin 2) (c : Dev nD) (o : (cc0_stg1_0 : Ref sig .tc).ty.Contents (Elt F)) : (cc0_stg1_0 : Ref sig .tc).ty.Contents (Elt F) :=
  ((oM : Memref sig .tc .vmem S256x256 .f32).access (rRow k) : View sig .tc _ _ _).write (Elt F) o
    (k0_pay3 ((oM : Memref sig .tc .vmem S256x256 .f32).view.readAt (Elt F) (rRow k).toLoadRect o)
      ((rM : Memref sig .tc .vmem S256x256 .f32).view.readAt (Elt F) (rRow k).toLoadRect (landed m k c))) Finset.univ

/-- The kernel's result on device `c`: its own columns, then the partner's two chunks added, rows `0 ..` then rows `128 ..`. -/
def outAt (c : Dev nD) : (cc0_stg1_0 : Ref sig .tc).ty.Contents (Elt F) := addRows m 1 c (addRows m 0 c (own m c))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, its
    partner's barrier cell (its signal) and the partner's two receive cells (its copies). -/
def invs (K : Dev nD × Fin 5 → ℕ) (c : Dev nD) : sProp 𝕄 :=
  iprop(cellInv ER (xRd m) (K (c, 0)) (barCell c) ∗ cellInv ER (xRd m) (K (c, 1)) (sendCell 0 c) ∗ cellInv ER (xRd m) (K (c, 2)) (sendCell 1 c)
    ∗ cellInv ER (xRd m) (K (c, 3)) (recvCell 0 c) ∗ cellInv ER (xRd m) (K (c, 4)) (recvCell 1 c)
    ∗ cellInv ER (xRd m) (K (peer c, 0)) (barCell (peer c))
    ∗ cellInv ER (xRd m) (K (peer c, 3)) (recvCell 0 (peer c)) ∗ cellInv ER (xRd m) (K (peer c, 4)) (recvCell 1 (peer c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own transfer cells; the five duty tokens it pays with — its partner's
    barrier duty and two receive duties, its own two send duties. -/
def ghost (K : Dev nD × Fin 5 → ℕ) (c : Dev nD) : sProp 𝕄 :=
  iprop(invs m K c
    ∗ atPos ER (barCell c) 0 ∅ 0 ∗ atPos ER (sendCell 0 c) 0 ∅ 0 ∗ atPos ER (sendCell 1 c) 0 ∅ 0 ∗ atPos ER (recvCell 0 c) 0 ∅ 0 ∗ atPos ER (recvCell 1 c) 0 ∅ 0
    ∗ reached ER (barCell (peer c)) 0 ∗ reached ER (recvCell 0 (peer c)) 0 ∗ reached ER (recvCell 1 (peer c)) 0
    ∗ reached ER (sendCell 0 c) 0 ∗ reached ER (sendCell 1 c) 0 ∗ reached ER (recvCell 0 c) 0 ∗ reached ER (recvCell 1 c) 0
    ∗ dutyTok ER (barCell (peer c)) 0 () ∗ dutyTok ER (recvCell 0 (peer c)) 0 () ∗ dutyTok ER (recvCell 1 (peer c)) 0 ()
    ∗ dutyTok ER (sendCell 0 c) 0 () ∗ dutyTok ER (sendCell 1 c) 0 ())

/-- What device `c`'s body starts from: that at some names, its three credit tokens (its barrier's unit, its two
    receive cells' credit) and the level facts. -/
def start (c : Dev nD) : sProp 𝕄 :=
  iprop((∃ K, ghost m K c) ∗ cred (tallyAt (barCell c) () 1) ∗ cred (tallyAt (recvCell 0 c) () N) ∗ cred (tallyAt (recvCell 1 c) () N) ∗ levAts L lv)

def Φ₀ (c : Dev nD) : sProp 𝕄 := iprop(start m c ∗ ∃ f, scrPts c f)
/-- After the point: the landing buffer back whole, the four own cells at zero, closed. -/
def Φ₁ (c : Dev nD) : sProp 𝕄 :=
  iprop((∃ f, scrPts c f) ∗ semVal (sendCell 0 c) 0 ∗ semVal (sendCell 1 c) 0 ∗ semVal (recvCell 0 c) 0 ∗ semVal (recvCell 1 c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.Kernel.Xchg

end
-- ==== Proof.BodyK.lean ====
/-
  One device's body of the exchange, stepped from the exchange's ghost state to the pipeline's post.

  The device pays its partner's barrier duty with its own landing buffer (cut into its two row halves) and the marks
  of its receive cells; stores its own columns of the half it keeps; waits for the partner's unit, which brings the
  partner's landing buffer; sends the two chunks of the other half, each copy paying the partner's receive duty with
  the rows it lands in and its own send duty with the rows it reads; and after chunk `k`'s two waits (its source rows
  back, its own landing rows holding the partner's chunk) adds the landed rows into its result. The devices with
  `c % 2 = 0` and with `c % 2 = 1` run the two mirror branches of the kernel.
-/
import proofs.«900307_g7700000000000308_dist_rs_v7x_xy2x2_y_m256_n256_f32_1_alg».proof.Proof.SchedK

noncomputable section

namespace Cert.Kernel.Xchg

open Cert.Kernel Cert.Kernel.Gen Cert.RS

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A buffer of device `c` held whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 5 → ℕ)

def bodyPre (c : Dev nD) : sProp 𝕄 :=
  iprop((ghost m K c ∗ cred (tallyAt (barCell c) () 1) ∗ cred (tallyAt (recvCell 0 c) () N) ∗ cred (tallyAt (recvCell 1 c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outAt m c))

theorem fetch_0 (t : Fin cfg0.N) : (cfg0.win (0 : Fin 2)).fetch t = true := by rw [fin_N t]; rfl

/-! ### The schedule's tables as the stepping reads them: payloads spelt as the points-tos they are -/

theorem half_peer_even (c : Dev nD) (hc : c.val % 2 = 0) : half (peer c) = 1 := by revert c; decide
theorem half_peer_odd (c : Dev nD) (hc : c.val % 2 = 1) : half (peer c) = 0 := by revert c; decide
theorem half_even (c : Dev nD) (hc : c.val % 2 = 0) : half c = 0 := by revert c; decide
theorem half_odd (c : Dev nD) (hc : c.val % 2 = 1) : half c = 1 := by revert c; decide

/-- What device `c` hands its partner with its signal: its own landing rows and its receive cells' marks. -/
theorem payload_barP (c : Dev nD) (d : Unit) : (xRd (F := F) m).payload (barCell (peer c)) 0 d
    = iprop((∃ f, (dstM 0).view.loc (c : Thread nD τ) ↦[(dstM 0).view.set]{fullShare} f)
        ∗ (∃ f, (dstM 1).view.loc (c : Thread nD τ) ↦[(dstM 1).view.set]{fullShare} f)
        ∗ reached ER (recvCell 0 c) 0 ∗ reached ER (recvCell 1 c) 0) := by
  rw [payload_bar]; unfold barPay rowPts; rw [peer_peer]

/-- What the partner's signal hands device `c`. -/
theorem payload_barO (c : Dev nD) (d : Unit) : (xRd (F := F) m).payload (barCell c) 0 d
    = iprop((∃ f, (dstM 0).view.loc (peer c : Thread nD τ) ↦[(dstM 0).view.set]{fullShare} f)
        ∗ (∃ f, (dstM 1).view.loc (peer c : Thread nD τ) ↦[(dstM 1).view.set]{fullShare} f)
        ∗ reached ER (recvCell 0 (peer c)) 0 ∗ reached ER (recvCell 1 (peer c)) 0) := by
  rw [payload_bar]; unfold barPay rowPts; rfl

theorem payload_sendO (k : Fin 2) (c : Dev nD) (d : Unit) : (xRd (F := F) m).payload (sendCell k c) 0 d
    = ((srcM k (half (peer c))).view.loc (c : Thread nD τ) ↦[(srcM k (half (peer c))).view.set]{fullShare} xstg m c) := by
  rw [payload_send]; rfl

theorem payload_recvO (k : Fin 2) (c : Dev nD) (d : Unit) : (xRd (F := F) m).payload (recvCell k c) 0 d
    = ((dstM k).view.loc (c : Thread nD τ) ↦[(dstM k).view.set]{fullShare} landed m k c) := by
  rw [payload_recv]; rfl

/-- A chunk landed over whatever the rows held is the landing buffer as the schedule names it: off the rows written
    nothing is claimed, on them both are the chunk. -/
theorem landed_pay (k : Fin 2) (c : Dev nD) (fd : Buf (Elt F) ((dstM k).view.loc (peer c : Thread nD τ))) :
    ((dstM k).view.loc (peer c : Thread nD τ) ↦[(dstM k).view.set]{fullShare}
        ((dstM k).view.write (Elt F) fd ((srcM k (half (peer c))).view.read (Elt F) (xstg m c)) Finset.univ) : sProp 𝕄)
      ⊢ (xRd (F := F) m).payload (recvCell k (peer c)) 0 () := by
  rw [payload_recvO]
  unfold landed sent
  rw [peer_peer]
  refine Entails.of_eq (pointsTo_congr fun i hi => ?_)
  obtain ⟨y, rfl⟩ := View.exists_emb_of_mem_set _ hi
  rw [View.write_emb_of_mem _ _ (Finset.mem_univ y), View.write_emb_of_mem _ _ (Finset.mem_univ y)]
  simp only [peer_peer]

theorem dv1 (c : Dev nD) (h : k0_dev1 c < nD) : (⟨k0_dev1 c, h⟩ : Dev nD) = peer c := Fin.ext (k0_dev1_eq c)
theorem dv2 (c : Dev nD) (h : k0_dev2 c < nD) : (⟨k0_dev2 c, h⟩ : Dev nD) = peer c := Fin.ext (k0_dev2_eq c)
theorem dv3 (c : Dev nD) (h : k0_dev3 c < nD) : (⟨k0_dev3 c, h⟩ : Dev nD) = peer c := Fin.ext (k0_dev3_eq c)
theorem dv4 (c : Dev nD) (h : k0_dev4 c < nD) : (⟨k0_dev4 c, h⟩ : Dev nD) = peer c := Fin.ext (k0_dev4_eq c)
theorem dv5 (c : Dev nD) (h : k0_dev5 c < nD) : (⟨k0_dev5 c, h⟩ : Dev nD) = peer c := Fin.ext (k0_dev5_eq c)

omit [FloatOps F] in
theorem src_set (k h : Fin 2) : (srcM k h).view.set
    = (Rect.unit (s := S1x256x512) ![0, 128 * k.val, 256 * h.val] S1x128x256.size (src_inb k h)).set := by
  show (((xM : Memref sig .tc .vmem S1x256x512 .f32).view.slice _).reshape S128x256 _).set = _
  rw [View.set_reshape]; exact View.set_slice_whole cc0_stg0_0 _
omit [FloatOps F] in
theorem src_disjoint (h : Fin 2) : Disjoint (srcM 0 h).view.set (srcM 1 h).view.set := by
  rw [src_set, src_set]; exact Rect.unit_disjoint (1 : Fin 3) (Or.inl (by revert h; decide))

omit [FloatOps F] in
theorem xPts_eq (c : Dev nD) : xPts m c = (((c : Thread nD τ).loc cc0_stg0_0) ↦{fullShare} xstg m c : sProp 𝕄) := by
  unfold xPts; rw [View.set_whole]

/-- The result's staging buffer of device `c` held whole at `g`, through its memref. -/
def oPts (c : Dev nD) (g : Buf (Elt F) ((oM : Memref sig .tc .vmem S256x256 .f32).view.loc (c : Thread nD τ))) : sProp 𝕄 :=
  (oM : Memref sig .tc .vmem S256x256 .f32).view.loc (c : Thread nD τ) ↦[(oM : Memref sig .tc .vmem S256x256 .f32).view.set]{fullShare} g
omit [FloatOps F] in
theorem oPts_eq (c : Dev nD) (g : Buf (Elt F) ((c : Thread nD τ).loc cc0_stg1_0)) :
    oPts c g = (((c : Thread nD τ).loc cc0_stg1_0) ↦{fullShare} g : sProp 𝕄) := by
  unfold oPts; rw [View.set_whole]

omit [FloatOps F] in
theorem amount_dst : ∀ k : Fin 2, (dstM k).view.amount (SemLoc.dma (rS k) : SemLoc sig) = N
  | 0 => rfl
  | 1 => rfl

/-- The copy of chunk `k` at the exchange's cells, addressed to a device `n` that IS the partner: the chunk's source
    rows pay this device's send duty, the partner's rows it lands in pay the partner's receive duty, and this device
    owes the partner's receive cell the chunk's credit no longer. -/
theorem wp_send_chunk (k h : Fin 2) (c n : Dev nD) (hn : n = peer c) (hh : half (peer c) = h) (κ₁ κ₂ : ℕ)
    {hsc : ((dstM k) : Memref sig (Dev.tc n : Thread nD τ).2.kind .vmem S128x256 .f32).view.ref.isScScratch = false}
    {hsrc : (srcM k h).view.WordExact} {hdst : (dstM k).view.WordExact}
    {hsem : DmaTarget.Typed .vmem (.dma (rS k)) (.remote (Dev.tc n : Thread nD τ) (dstM k) (.dma (sS k)) hsc)}
    {α : Type} {Q : α → sProp 𝕄} {k' : PUnit → Prog (TpuEff nD τ sig (Elt F) Λ₀ .tc) α}
    (fn : Buf (Elt F) ((dstM k).view.loc (peer c : Thread nD τ))) (O₀ O : CellTallies nD τ sig Unit)
    (hO : O₀ = O + tallyAt (recvCell k (peer c)) () N) (W : Waits sig Unit) :
    iprop(cellInv ER (xRd m) κ₁ (sendCell k c) ∗ cellInv ER (xRd m) κ₂ (recvCell k (peer c))
        ∗ ((srcM k h).view.loc (c : Thread nD τ) ↦[(srcM k h).view.set]{fullShare} xstg m c)
        ∗ ((dstM k).view.loc (peer c : Thread nD τ) ↦[(dstM k).view.set]{fullShare} fn)
        ∗ owes (c : Thread nD τ) O₀ W
        ∗ dutyTok ER (sendCell k c) 0 () ∗ reached ER (sendCell k c) 0
        ∗ dutyTok ER (recvCell k (peer c)) 0 () ∗ reached ER (recvCell k (peer c)) 0)
      ⊢ iprop(((cred (tallyAt (sendCell k c) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (srcM k h) (.remote (Dev.tc n : Thread nD τ) (dstM k) (.dma (sS k)) hsc) (.dma (rS k)) hsrc hdst hsem) k') Q) := by
  subst hn; subst hh
  exact Rounds.wp_send_pointsTo 𝒱₀ ER (xRd m) (c : Thread nD τ) none (κ₁ := κ₁) (κ₂ := κ₂)
    (r₁ := 0) (r₂ := 0) (d₁ := ()) (d₂ := ()) (fd := fn)
    (by rw [duties_send]; exact Finset.mem_singleton_self _) (by rw [duties_recv]; exact Finset.mem_singleton_self _)
    () () N (amount_dst k) (amount_send m c k ()) (amount_recv m (peer c) k ()) O hO (W := W)
    (by rw [payload_sendO])
    (landed_pay m k c fn)

omit [FloatOps F] in
theorem src_credit : ∀ k h : Fin 2, (srcM k h).view.dmaCredit = N
  | 0, 0 => rfl
  | 0, 1 => rfl
  | 1, 0 => rfl
  | 1, 1 => rfl
omit [FloatOps F] in
theorem dst_credit : ∀ k : Fin 2, (dstM k).view.dmaCredit = N
  | 0 => rfl
  | 1 => rfl

omit [FloatOps F] in
theorem hz2 : (![0, 0] : Fin 2 → Nat) = fun _ => 0 := funext fun a => by fin_cases a <;> rfl

omit [FloatOps F] in
/-- A store through the whole result buffer leaves its payload, whatever the buffer held. -/
theorem write_all (g w : (cc0_stg1_0 : Ref sig .tc).ty.Contents (Elt F)) :
    ((oM : Memref sig .tc .vmem S256x256 .f32).access rAll : View sig .tc _ _ _).write (Elt F) g w Finset.univ = w :=
  Memref.write_access_unit_zero_univ (Elt F) cc0_stg1_0 hz2 _ g w

/-- Whatever the result's staging buffer held, after the three stores of a device with `c % 2 = h` it holds `outAt`:
    the first store overwrites all of it. -/
theorem out_of_half (c : Dev nD) (h : Fin 2) (hh : half c = h) (g : (cc0_stg1_0 : Ref sig .tc).ty.Contents (Elt F)) :
    addRows m 1 c (addRows m 0 c
      (((oM : Memref sig .tc .vmem S256x256 .f32).access rAll : View sig .tc _ _ _).write (Elt F) g
        (k0_pay1 ((xM : Memref sig .tc .vmem S1x256x512 .f32).view.readAt (Elt F) (rCol h).toLoadRect (xstg m c))) Finset.univ))
      = outAt m c := by
  subst hh
  unfold outAt own
  rw [write_all]

attribute [local sl_rounds] duties_bar duties_send duties_recv amount_bar amount_send amount_recv expect_bar expect_send expect_recv
  payload_barO payload_sendO payload_recvO

set_option maxHeartbeats 3200000 in
/-- The body on a device with `c % 2 = 0`: it keeps the columns `0 ..` and sends the columns `256 ..`. -/
theorem body_even (c : Dev nD) (hc : c.val % 2 = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [Prog.lift, Prog.bind_op, Prog.bind_ret, Prog.pure_eq_ret, wp_deviceId]
  simp only [cond1_even c hc, cond2_even c hc, cond3_even c hc, cond4_even c hc, ↓reduceDIte, dite_true, dite_false]
  simp only [k0_part1_eq_skeleton, k0_part2_eq_skeleton]; unfold k0_part1_skel k0_part2_skel
  simp only [semSignalWord, semWaitWord, Prog.lift, Prog.bind_op, Prog.bind_ret, Prog.bind_lift, Prog.pure_eq_ret, bind_assoc]
  simp only [dv1 c]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1, #HrR0, #HrR1, HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁
  ihave Hrows := (scr_rows c f0).1 $$ Hscr
  unfold rowPts
  icases Hrows with ⟨Hrow0, Hrow1⟩
  -- the signal to the partner's barrier cell: its one duty, paid with this device's landing rows and receive marks
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) ()
      (tallyAt (recvCell 1 (peer c)) () N + tallyAt (recvCell 0 (peer c)) () N) rfl) $$ [HO HtBP Hrow0 Hrow1]
  · isplitr; · iexact HIbarP
    isplitl [HO]; · iexact HO
    isplitl [HtBP]; · iexact HtBP
    isplitl [Hrow0 Hrow1]
    · rw [payload_barP]
      isplitl [Hrow0]; · iexists f0; iexact Hrow0
      isplitl [Hrow1]; · iexists f0; iexact Hrow1
      isplitr; · iexact HrR0
      iexact HrR1
    · iexact HrBP
  iintro HO
  -- the device's own columns of the half it keeps, stored over the whole result
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := rAll) (Mk := Finset.univ) (Finset.subset_univ _)) $$ Hout; iintro Hout
  -- the wait for the partner's unit: the partner's landing rows come with it
  have hmwB : (levAts L lv : sProp 𝕄) ⊢ MayWait (c : Thread nD τ) (.reg barS) ()
      (tallyAt (recvCell 1 (peer c)) () N + tallyAt (recvCell 0 (peer c)) () N) := mayWait_bar c
  beta_reduce
  sl_exec
  -- the staged block cut into the two chunks' source rows and the rest
  ihave Hx3 := (pointsTo_split_subset (ℓ := (c : Thread nD τ).loc cc0_stg0_0) (I := (srcM 0 1).view.set ∪ (srcM 1 1).view.set) (S := Finset.univ)
      (Finset.subset_univ _)).1 $$ Hx
  icases Hx3 with ⟨Hs01, Hxrest⟩
  ihave Hs01' := (pointsTo_union (ℓ := (c : Thread nD τ).loc cc0_stg0_0) (src_disjoint 1)).1 $$ Hs01
  icases Hs01' with ⟨Hs0, Hs1⟩
  -- chunk 0, then chunk 1: each copy's source rows pay this device's send duty, the rows it lands in the partner's receive duty
  iapply (wp_send_chunk m 0 1 c _ (dv2 c _) (half_peer_even c hc) (K (c, 1)) (K (peer c, 3)) HatB_pay1_v
      _ (tallyAt (recvCell 1 (peer c)) () N) rfl _) $$ [Hs0 HatB_pay1 HO HtS0 HtR0P]
  · isplitr; · iexact HIs0
    isplitr; · iexact HIr0P
    isplitl [Hs0]; · iexact Hs0
    isplitl [HatB_pay1]; · iexact HatB_pay1
    isplitl [HO]; · iexact HO
    isplitl [HtS0]; · iexact HtS0
    isplitr; · iexact HrS0
    isplitl [HtR0P]; · iexact HtR0P
    iexact HrR0P
  iintro ⟨HcS0, HO⟩
  iapply (wp_send_chunk m 1 1 c _ (dv3 c _) (half_peer_even c hc) (K (c, 2)) (K (peer c, 4)) HatB_pay2_v
      _ 0 (zero_add _).symm _) $$ [Hs1 HatB_pay2 HO HtS1 HtR1P]
  · isplitr; · iexact HIs1
    isplitr; · iexact HIr1P
    isplitl [Hs1]; · iexact Hs1
    isplitl [HatB_pay2]; · iexact HatB_pay2
    isplitl [HO]; · iexact HO
    isplitl [HtS1]; · iexact HtS1
    isplitr; · iexact HrS1
    isplitl [HtR1P]; · iexact HtR1P
    iexact HrR1P
  iintro ⟨HcS1, HO⟩
  -- chunk 0's send wait: its source rows come back
  iapply (Rounds.wp_wait_rest_token 𝒱₀ ER (xRd m) (c : Thread nD τ) none (κ := K (c, 1))
      (wpE_waitDma2_eq 𝒱₀ (c : Thread nD τ) none Set.univ) (Set.mem_univ _) () (O := 0) (R := 0) (m := 0) (T := ∅)
      ((Nat.zero_add _).trans ((src_credit 0 1).trans (expect_send m c 0).symm))) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq ((rest_send m c 0).trans (by unfold sendPay srcPts; rw [half_peer_even c hc]))) $$ Hpay
  -- chunk 0's receive wait: this device's landing rows come holding the partner's chunk
  iapply (Rounds.wp_wait_rest_token 𝒱₀ ER (xRd m) (c : Thread nD τ) none (κ := K (c, 3))
      (wpE_waitDma2_eq 𝒱₀ (c : Thread nD τ) none Set.univ) (Set.mem_univ _) () (O := 0) (R := 0) (m := 0) (T := ∅)
      ((Nat.zero_add _).trans ((dst_credit 0).trans (expect_recv m c 0).symm))) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq ((rest_recv m c 0).trans (by unfold recvPay rowPts; rfl))) $$ Hpay
  -- rows 0 .. of the result: what they hold plus the landed chunk 0
  iapply (wp_load 𝒱₀ (c : Thread nD τ) none Set.univ (m := oM) (Finset.subset_univ _)) $$ Hout; iintro Hout
  iapply (wp_load_rect 𝒱₀ (c : Thread nD τ) none Set.univ (m := rM) (r := rRow 0) (Finset.Subset.refl _)) $$ Hl0; iintro Hl0
  iapply (wp_load 𝒱₀ (c : Thread nD τ) none Set.univ (m := oM) (Finset.subset_univ _)) $$ Hout; iintro Hout
  iapply (wp_store 𝒱₀ (c : Thread nD τ) none Set.univ (m := oM) (r := rRow 0) (Mk := Finset.univ) (Finset.subset_univ _)) $$ Hout; iintro Hout
  -- chunk 1's send wait: its source rows come back
  iapply (Rounds.wp_wait_rest_token 𝒱₀ ER (xRd m) (c : Thread nD τ) none (κ := K (c, 2))
      (wpE_waitDma2_eq 𝒱₀ (c : Thread nD τ) none Set.univ) (Set.mem_univ _) () (O := 0) (R := 0) (m := 0) (T := ∅)
      ((Nat.zero_add _).trans ((src_credit 1 1).trans (expect_send m c 1).symm))) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq ((rest_send m c 1).trans (by unfold sendPay srcPts; rw [half_peer_even c hc]))) $$ Hpay
  -- chunk 1's receive wait: this device's landing rows come holding the partner's chunk
  iapply (Rounds.wp_wait_rest_token 𝒱₀ ER (xRd m) (c : Thread nD τ) none (κ := K (c, 4))
      (wpE_waitDma2_eq 𝒱₀ (c : Thread nD τ) none Set.univ) (Set.mem_univ _) () (O := 0) (R := 0) (m := 0) (T := ∅)
      ((Nat.zero_add _).trans ((dst_credit 1).trans (expect_recv m c 1).symm))) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq ((rest_recv m c 1).trans (by unfold recvPay rowPts; rfl))) $$ Hpay
  -- the four own cells close: their counters at zero are the device's again
  imod (Rounds.cell_close ER (xRd m) (Set.mem_univ (K (c, 1))) (fun h => h) (R := 0 + 1) (duties_later m (sendCell 0 c))) $$ [HatS0] with HzS0
  · isplitr; · iexact HIs0
    iexact HatS0
  imod (Rounds.cell_close ER (xRd m) (Set.mem_univ (K (c, 2))) (fun h => h) (R := 0 + 1) (duties_later m (sendCell 1 c))) $$ [HatS1] with HzS1
  · isplitr; · iexact HIs1
    iexact HatS1
  imod (Rounds.cell_close ER (xRd m) (Set.mem_univ (K (c, 3))) (fun h => h) (R := 0 + 1) (duties_later m (recvCell 0 c))) $$ [HatR0] with HzR0
  · isplitr; · iexact HIr0
    iexact HatR0
  imod (Rounds.cell_close ER (xRd m) (Set.mem_univ (K (c, 4))) (fun h => h) (R := 0 + 1) (duties_later m (recvCell 1 c))) $$ [HatR1] with HzR1
  · isplitr; · iexact HIr1
    iexact HatR1
  -- rows 128 .. of the result: what they hold plus the landed chunk 1
  iapply (wp_load 𝒱₀ (c : Thread nD τ) none Set.univ (m := oM) (Finset.subset_univ _)) $$ Hout; iintro Hout
  iapply (wp_load_rect 𝒱₀ (c : Thread nD τ) none Set.univ (m := rM) (r := rRow 1) (Finset.Subset.refl _)) $$ Hl1; iintro Hl1
  iapply (wp_load 𝒱₀ (c : Thread nD τ) none Set.univ (m := oM) (Finset.subset_univ _)) $$ Hout; iintro Hout
  iapply (wp_store 𝒱₀ (c : Thread nD τ) none Set.univ (m := oM) (r := rRow 1) (Mk := Finset.univ) (Finset.subset_univ _)) $$ Hout; iintro Hout
  beta_reduce
  rw [wp_ret]; imodintro
  iapply Hk
  unfold bodyPost Φ₁ Dat.owesAt Pipeline.owesWithin
  rw [show (dats m ρ 0 c).owed t₀.succ = 0 from rfl]
  isplitl [Hl0 Hl1 HzS0 HzS1 HzR0 HzR1]
  · isplitl [Hl0 Hl1]
    · -- the landing buffer whole again, at the two landed chunks
      ihave Hj := (pointsTo_join (ℓ := (c : Thread nD τ).loc cc0_scratch0) rows_disjoint) $$ [Hl0 Hl1]
      · isplitl [Hl0] <;> iassumption
      iexists _
      unfold scrPts
      rw [← rows_cover]
      iexact Hj
    isplitl [HzS0]; · iexact HzS0
    isplitl [HzS1]; · iexact HzS1
    isplitl [HzR0]; · iexact HzR0
    iexact HzR1
  isplitl [HO]
  · iexists (insert (SemLoc.dma (rS 1), ()) (insert (SemLoc.dma (sS 1), ()) (insert (SemLoc.dma (rS 0), ()) (insert (SemLoc.dma (sS 0), ())
      (insert (SemLoc.reg barS, ()) W)))))
    isplitr; · ipureintro; exact fun _ _ => Or.inl trivial
    iexact HO
  isplitl [Hs0 Hs1 Hxrest]
  · -- the staged block whole again
    ihave H01 := (pointsTo_union (ℓ := (c : Thread nD τ).loc cc0_stg0_0) (src_disjoint 1)).2 $$ [Hs0 Hs1]
    · isplitl [Hs0] <;> iassumption
    ihave Hxw := (pointsTo_split_subset (ℓ := (c : Thread nD τ).loc cc0_stg0_0) (I := (srcM 0 1).view.set ∪ (srcM 1 1).view.set) (S := Finset.univ)
        (Finset.subset_univ _)).2 $$ [H01 Hxrest]
    · isplitl [H01] <;> iassumption
    iexists _; isplitr; · (ipureintro; rfl)
    iexact Hxw
  iexists _; isplitr; · ipureintro; exact out_of_half m c 0 (half_even c hc) g1
  iexact Hout

set_option maxHeartbeats 3200000 in
/-- The body on a device with `c % 2 = 1`: it keeps the columns `256 ..` and sends the columns `0 ..`. -/
theorem body_odd (c : Dev nD) (hc : c.val % 2 = 1) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [Prog.lift, Prog.bind_op, Prog.bind_ret, Prog.pure_eq_ret, wp_deviceId]
  simp only [cond1_odd c hc, cond2_odd c hc, cond3_odd c hc, cond4_odd c hc, ↓reduceDIte, dite_true, dite_false]
  simp only [k0_part3_eq_skeleton, k0_part4_eq_skeleton]; unfold k0_part3_skel k0_part4_skel
  simp only [semSignalWord, semWaitWord, Prog.lift, Prog.bind_op, Prog.bind_ret, Prog.bind_lift, Prog.pure_eq_ret, bind_assoc]
  simp only [dv1 c]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1, #HrR0, #HrR1, HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁
  ihave Hrows := (scr_rows c f0).1 $$ Hscr
  unfold rowPts
  icases Hrows with ⟨Hrow0, Hrow1⟩
  -- the signal to the partner's barrier cell: its one duty, paid with this device's landing rows and receive marks
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) ()
      (tallyAt (recvCell 1 (peer c)) () N + tallyAt (recvCell 0 (peer c)) () N) rfl) $$ [HO HtBP Hrow0 Hrow1]
  · isplitr; · iexact HIbarP
    isplitl [HO]; · iexact HO
    isplitl [HtBP]; · iexact HtBP
    isplitl [Hrow0 Hrow1]
    · rw [payload_barP]
      isplitl [Hrow0]; · iexists f0; iexact Hrow0
      isplitl [Hrow1]; · iexists f0; iexact Hrow1
      isplitr; · iexact HrR0
      iexact HrR1
    · iexact HrBP
  iintro HO
  -- the device's own columns of the half it keeps, stored over the whole result
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := rAll) (Mk := Finset.univ) (Finset.subset_univ _)) $$ Hout; iintro Hout
  -- the wait for the partner's unit: the partner's landing rows come with it
  have hmwB : (levAts L lv : sProp 𝕄) ⊢ MayWait (c : Thread nD τ) (.reg barS) ()
      (tallyAt (recvCell 1 (peer c)) () N + tallyAt (recvCell 0 (peer c)) () N) := mayWait_bar c
  beta_reduce
  sl_exec
  -- the staged block cut into the two chunks' source rows and the rest
  ihave Hx3 := (pointsTo_split_subset (ℓ := (c : Thread nD τ).loc cc0_stg0_0) (I := (srcM 0 0).view.set ∪ (srcM 1 0).view.set) (S := Finset.univ)
      (Finset.subset_univ _)).1 $$ Hx
  icases Hx3 with ⟨Hs01, Hxrest⟩
  ihave Hs01' := (pointsTo_union (ℓ := (c : Thread nD τ).loc cc0_stg0_0) (src_disjoint 0)).1 $$ Hs01
  icases Hs01' with ⟨Hs0, Hs1⟩
  -- chunk 0, then chunk 1: each copy's source rows pay this device's send duty, the rows it lands in the partner's receive duty
  iapply (wp_send_chunk m 0 0 c _ (dv4 c _) (half_peer_odd c hc) (K (c, 1)) (K (peer c, 3)) HatB_pay1_v
      _ (tallyAt (recvCell 1 (peer c)) () N) rfl _) $$ [Hs0 HatB_pay1 HO HtS0 HtR0P]
  · isplitr; · iexact HIs0
    isplitr; · iexact HIr0P
    isplitl [Hs0]; · iexact Hs0
    isplitl [HatB_pay1]; · iexact HatB_pay1
    isplitl [HO]; · iexact HO
    isplitl [HtS0]; · iexact HtS0
    isplitr; · iexact HrS0
    isplitl [HtR0P]; · iexact HtR0P
    iexact HrR0P
  iintro ⟨HcS0, HO⟩
  iapply (wp_send_chunk m 1 0 c _ (dv5 c _) (half_peer_odd c hc) (K (c, 2)) (K (peer c, 4)) HatB_pay2_v
      _ 0 (zero_add _).symm _) $$ [Hs1 HatB_pay2 HO HtS1 HtR1P]
  · isplitr; · iexact HIs1
    isplitr; · iexact HIr1P
    isplitl [Hs1]; · iexact Hs1
    isplitl [HatB_pay2]; · iexact HatB_pay2
    isplitl [HO]; · iexact HO
    isplitl [HtS1]; · iexact HtS1
    isplitr; · iexact HrS1
    isplitl [HtR1P]; · iexact HtR1P
    iexact HrR1P
  iintro ⟨HcS1, HO⟩
  -- chunk 0's send wait: its source rows come back
  iapply (Rounds.wp_wait_rest_token 𝒱₀ ER (xRd m) (c : Thread nD τ) none (κ := K (c, 1))
      (wpE_waitDma2_eq 𝒱₀ (c : Thread nD τ) none Set.univ) (Set.mem_univ _) () (O := 0) (R := 0) (m := 0) (T := ∅)
      ((Nat.zero_add _).trans ((src_credit 0 0).trans (expect_send m c 0).symm))) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq ((rest_send m c 0).trans (by unfold sendPay srcPts; rw [half_peer_odd c hc]))) $$ Hpay
  -- chunk 0's receive wait: this device's landing rows come holding the partner's chunk
  iapply (Rounds.wp_wait_rest_token 𝒱₀ ER (xRd m) (c : Thread nD τ) none (κ := K (c, 3))
      (wpE_waitDma2_eq 𝒱₀ (c : Thread nD τ) none Set.univ) (Set.mem_univ _) () (O := 0) (R := 0) (m := 0) (T := ∅)
      ((Nat.zero_add _).trans ((dst_credit 0).trans (expect_recv m c 0).symm))) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq ((rest_recv m c 0).trans (by unfold recvPay rowPts; rfl))) $$ Hpay
  -- rows 0 .. of the result: what they hold plus the landed chunk 0
  iapply (wp_load 𝒱₀ (c : Thread nD τ) none Set.univ (m := oM) (Finset.subset_univ _)) $$ Hout; iintro Hout
  iapply (wp_load_rect 𝒱₀ (c : Thread nD τ) none Set.univ (m := rM) (r := rRow 0) (Finset.Subset.refl _)) $$ Hl0; iintro Hl0
  iapply (wp_load 𝒱₀ (c : Thread nD τ) none Set.univ (m := oM) (Finset.subset_univ _)) $$ Hout; iintro Hout
  iapply (wp_store 𝒱₀ (c : Thread nD τ) none Set.univ (m := oM) (r := rRow 0) (Mk := Finset.univ) (Finset.subset_univ _)) $$ Hout; iintro Hout
  -- chunk 1's send wait: its source rows come back
  iapply (Rounds.wp_wait_rest_token 𝒱₀ ER (xRd m) (c : Thread nD τ) none (κ := K (c, 2))
      (wpE_waitDma2_eq 𝒱₀ (c : Thread nD τ) none Set.univ) (Set.mem_univ _) () (O := 0) (R := 0) (m := 0) (T := ∅)
      ((Nat.zero_add _).trans ((src_credit 1 0).trans (expect_send m c 1).symm))) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq ((rest_send m c 1).trans (by unfold sendPay srcPts; rw [half_peer_odd c hc]))) $$ Hpay
  -- chunk 1's receive wait: this device's landing rows come holding the partner's chunk
  iapply (Rounds.wp_wait_rest_token 𝒱₀ ER (xRd m) (c : Thread nD τ) none (κ := K (c, 4))
      (wpE_waitDma2_eq 𝒱₀ (c : Thread nD τ) none Set.univ) (Set.mem_univ _) () (O := 0) (R := 0) (m := 0) (T := ∅)
      ((Nat.zero_add _).trans ((dst_credit 1).trans (expect_recv m c 1).symm))) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq ((rest_recv m c 1).trans (by unfold recvPay rowPts; rfl))) $$ Hpay
  -- the four own cells close: their counters at zero are the device's again
  imod (Rounds.cell_close ER (xRd m) (Set.mem_univ (K (c, 1))) (fun h => h) (R := 0 + 1) (duties_later m (sendCell 0 c))) $$ [HatS0] with HzS0
  · isplitr; · iexact HIs0
    iexact HatS0
  imod (Rounds.cell_close ER (xRd m) (Set.mem_univ (K (c, 2))) (fun h => h) (R := 0 + 1) (duties_later m (sendCell 1 c))) $$ [HatS1] with HzS1
  · isplitr; · iexact HIs1
    iexact HatS1
  imod (Rounds.cell_close ER (xRd m) (Set.mem_univ (K (c, 3))) (fun h => h) (R := 0 + 1) (duties_later m (recvCell 0 c))) $$ [HatR0] with HzR0
  · isplitr; · iexact HIr0
    iexact HatR0
  imod (Rounds.cell_close ER (xRd m) (Set.mem_univ (K (c, 4))) (fun h => h) (R := 0 + 1) (duties_later m (recvCell 1 c))) $$ [HatR1] with HzR1
  · isplitr; · iexact HIr1
    iexact HatR1
  -- rows 128 .. of the result: what they hold plus the landed chunk 1
  iapply (wp_load 𝒱₀ (c : Thread nD τ) none Set.univ (m := oM) (Finset.subset_univ _)) $$ Hout; iintro Hout
  iapply (wp_load_rect 𝒱₀ (c : Thread nD τ) none Set.univ (m := rM) (r := rRow 1) (Finset.Subset.refl _)) $$ Hl1; iintro Hl1
  iapply (wp_load 𝒱₀ (c : Thread nD τ) none Set.univ (m := oM) (Finset.subset_univ _)) $$ Hout; iintro Hout
  iapply (wp_store 𝒱₀ (c : Thread nD τ) none Set.univ (m := oM) (r := rRow 1) (Mk := Finset.univ) (Finset.subset_univ _)) $$ Hout; iintro Hout
  beta_reduce
  rw [wp_ret]; imodintro
  iapply Hk
  unfold bodyPost Φ₁ Dat.owesAt Pipeline.owesWithin
  rw [show (dats m ρ 0 c).owed t₀.succ = 0 from rfl]
  isplitl [Hl0 Hl1 HzS0 HzS1 HzR0 HzR1]
  · isplitl [Hl0 Hl1]
    · -- the landing buffer whole again, at the two landed chunks
      ihave Hj := (pointsTo_join (ℓ := (c : Thread nD τ).loc cc0_scratch0) rows_disjoint) $$ [Hl0 Hl1]
      · isplitl [Hl0] <;> iassumption
      iexists _
      unfold scrPts
      rw [← rows_cover]
      iexact Hj
    isplitl [HzS0]; · iexact HzS0
    isplitl [HzS1]; · iexact HzS1
    isplitl [HzR0]; · iexact HzR0
    iexact HzR1
  isplitl [HO]
  · iexists (insert (SemLoc.dma (rS 1), ()) (insert (SemLoc.dma (sS 1), ()) (insert (SemLoc.dma (rS 0), ()) (insert (SemLoc.dma (sS 0), ())
      (insert (SemLoc.reg barS, ()) W)))))
    isplitr; · ipureintro; exact fun _ _ => Or.inl trivial
    iexact HO
  isplitl [Hs0 Hs1 Hxrest]
  · -- the staged block whole again
    ihave H01 := (pointsTo_union (ℓ := (c : Thread nD τ).loc cc0_stg0_0) (src_disjoint 0)).2 $$ [Hs0 Hs1]
    · isplitl [Hs0] <;> iassumption
    ihave Hxw := (pointsTo_split_subset (ℓ := (c : Thread nD τ).loc cc0_stg0_0) (I := (srcM 0 0).view.set ∪ (srcM 1 0).view.set) (S := Finset.univ)
        (Finset.subset_univ _)).2 $$ [H01 Hxrest]
    · isplitl [H01] <;> iassumption
    iexists _; isplitr; · (ipureintro; rfl)
    iexact Hxw
  iexists _; isplitr; · ipureintro; exact out_of_half m c 1 (half_odd c hc) g1
  iexact Hout

/-- The body on any device: one of the two mirror branches, by the parity of the device. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rcases Nat.mod_two_eq_zero_or_one c.val with hc | hc
  · exact body_even m ρ K c hc Kt
  · exact body_odd m ρ K c hc Kt

end Body

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.Kernel.Xchg.body_obligation' depends on axioms: [propext, Classical.choice, Quot.sound] -/
#guard_msgs in #print axioms body_obligation

end Cert.Kernel.Xchg

end
-- ==== Proof.LaunchK.lean ====
/-
  The launch of the exchange: from a memory with every counter at zero to each device's body at its one grid point,
  and from the last point back to the final arrays.

  The launch's ghost element holds, beside the pipeline's own, round 0 of all twenty cells of the exchange (five per
  device) and one duty token per cell. Under one update for all four devices the twenty cells' invariants are
  allocated from the counters at zero, and the tokens are dealt to the devices that PAY the duties: a device's barrier
  token and its two receive tokens go to its partner, its two send tokens stay with it. Each device is owed one unit
  on its barrier cell and one chunk's credit on each receive cell, all by its partner; that is its launch credit.
-/
import proofs.«900307_g7700000000000308_dist_rs_v7x_xy2x2_y_m256_n256_f32_1_alg».proof.Proof.SchedK
import Idealize.ShloMosaic.Lib.Pipeline.Launch
import Idealize.ShloMosaic.Lib.Pipeline.Kit
import Idealize.ShloMosaic.Lib.Tactic

noncomputable section

namespace Cert.Kernel.Xchg

open Cert.Kernel Cert.Kernel.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost element and what it deals each device -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The exchange's twenty cells. -/
def xCells : Finset (GSem nD τ sig) := Finset.univ.map ⟨kcell, kcell_injective⟩

/-- One duty token per cell, as minted: the cell's round-0 duty. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own five cells. -/
def toks (c : Dev nD) : sProp 𝕄 :=
  iprop(dutyTok ER (barCell c) 0 () ∗ dutyTok ER (sendCell 0 c) 0 () ∗ dutyTok ER (sendCell 1 c) 0 ()
    ∗ dutyTok ER (recvCell 0 c) 0 () ∗ dutyTok ER (recvCell 1 c) 0 ())

/-- What the launch element deals device `c`: round 0 of its five cells, its positions and marks there, its cells' tokens. -/
def G (c : Dev nD) : sProp 𝕄 :=
  iprop((bigSep Finset.univ fun k : Fin 5 => roundState ER (xRd m) (kcell (c, k)) 0)
    ∗ (bigSep Finset.univ fun k : Fin 5 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (recvCell 0 c) 0 ∗ semVal (recvCell 1 c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HR0, HR1⟩, HB⟩
  isplitl [HB]; · iexact HB
  isplitl [HS0]; · iexact HS0
  isplitl [HS1]; · iexact HS1
  isplitl [HR0] <;> iassumption

/-! ## The global step: the twenty cells' invariants allocated, the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read: all twenty invariants at their names, all twenty cells marked at round 0. -/
def records (K : Dev nD × Fin 5 → ℕ) : sProp 𝕄 :=
  iprop((bigSep Finset.univ fun ck : Dev nD × Fin 5 => cellInv ER (xRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (xRd m) (K ck) (kcell ck) : sProp 𝕄)) ⊢ cellInv ER (xRd m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` PAYS: its partner's barrier duty (its signal), its partner's two receive duties
    (its two copies landing there), its own two send duties (the same copies having read their source). -/
def payToks (c : Dev nD) : sProp 𝕄 :=
  iprop(dutyTok ER (barCell (peer c)) 0 () ∗ dutyTok ER (recvCell 0 (peer c)) 0 () ∗ dutyTok ER (recvCell 1 (peer c)) 0 ()
    ∗ dutyTok ER (sendCell 0 c) 0 () ∗ dutyTok ER (sendCell 1 c) 0 ())
/-- What stays with device `c` alone: its positions on its five cells, and those tokens. -/
def linear (c : Dev nD) : sProp 𝕄 :=
  iprop((atPos ER (barCell c) 0 ∅ 0 ∗ atPos ER (sendCell 0 c) 0 ∅ 0 ∗ atPos ER (sendCell 1 c) 0 ∅ 0
      ∗ atPos ER (recvCell 0 c) 0 ∅ 0 ∗ atPos ER (recvCell 1 c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaR0, HaR1⟩, HtB, HtR0, HtR1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtB]; · iexact HtB
  isplitl [HtR0]; · iexact HtR0
  isplitl [HtR1]; · iexact HtR1
  isplitl [HtS0]; · iexact HtS0
  iexact HtS1

omit [FloatOps F] in
/-- The tokens dealt across each pair: a device's barrier token and its two receive tokens go to its partner (the partner
    map is an involution, so each family is the same family read at the partner); its send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell 0 c) 0 () : sProp 𝕄)),
    bigSep_univ_equiv pairing (fun c : Dev nD => (dutyTok ER (recvCell 1 c) 0 () : sProp 𝕄))]
  iintro ⟨HB, HS0, HS1, HR0, HR1⟩
  isplitl [HB]; · iexact HB
  isplitl [HR0]; · iexact HR0
  isplitl [HR1]; · iexact HR1
  isplitl [HS0]; · iexact HS0
  iexact HS1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (xRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: every device's own and unscoped semaphores at zero and its share of the launch element, all
    devices at once, become every device's starting ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the other devices owe a device's cells at launch -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff (k : Fin 2) {a b : Dev nD} : Iff (recvCell k a = recvCell k b) (a = b) :=
  ⟨fun h => Fin.ext (congrArg (fun g : GSem nD τ sig => g.1.1.val) h), fun h => h ▸ rfl⟩

omit [FloatOps F] in
/-- Device `d` owes device `c`'s barrier cell a unit exactly when it is `c`'s partner; -/
theorem owed_bar (d c : Dev nD) : O₀ d (barCell c) () = if d = peer c then 1 else 0 := by
  unfold O₀ O₁
  rw [Pi.add_apply, Finsupp.add_apply, Pi.add_apply, Finsupp.add_apply,
    tallyAt_ne_cell (fun h => rS_ne_bar 1 (congrArg Prod.snd h).symm), tallyAt_ne_cell (fun h => rS_ne_bar 0 (congrArg Prod.snd h).symm),
    Finsupp.zero_apply, Nat.add_zero, Nat.zero_add, tallyAt_apply]
  by_cases h : d = peer c
  · subst h; rw [peer_peer, if_pos ⟨rfl, rfl⟩, if_pos rfl]
  · rw [if_neg (fun ⟨h1, _⟩ => h (by rw [bar_eq_iff.mp h1, peer_peer])), if_neg h]

omit [FloatOps F] in
/-- and each of `c`'s receive cells a chunk's credit exactly then. -/
theorem owed_recv0 (d c : Dev nD) : O₀ d (recvCell 0 c) () = if d = peer c then N else 0 := by
  unfold O₀ O₁
  rw [Pi.add_apply, Finsupp.add_apply, Pi.add_apply, Finsupp.add_apply,
    tallyAt_ne_cell (fun h => rS1_ne_rS0 (congrArg Prod.snd h).symm) (g := recvCell 1 (peer d)), tallyAt_ne_cell (fun h => rS_ne_bar 0 (congrArg Prod.snd h)) (g := barCell (peer d)),
    Finsupp.zero_apply, Nat.zero_add, Nat.add_zero, tallyAt_apply]
  by_cases h : d = peer c
  · subst h; rw [peer_peer, if_pos ⟨rfl, rfl⟩, if_pos rfl]
  · rw [if_neg (fun ⟨h1, _⟩ => h (by rw [(recv_eq_iff 0).mp h1, peer_peer])), if_neg h]

omit [FloatOps F] in
theorem owed_recv1 (d c : Dev nD) : O₀ d (recvCell 1 c) () = if d = peer c then N else 0 := by
  unfold O₀ O₁
  rw [Pi.add_apply, Finsupp.add_apply, Pi.add_apply, Finsupp.add_apply,
    tallyAt_ne_cell (fun h => rS1_ne_rS0 (congrArg Prod.snd h)) (g := recvCell 0 (peer d)), tallyAt_ne_cell (fun h => rS_ne_bar 1 (congrArg Prod.snd h)) (g := barCell (peer d)),
    Finsupp.zero_apply, Nat.add_zero, Nat.add_zero, tallyAt_apply]
  by_cases h : d = peer c
  · subst h; rw [peer_peer, if_pos ⟨rfl, rfl⟩, if_pos rfl]
  · rw [if_neg (fun ⟨h1, _⟩ => h (by rw [(recv_eq_iff 1).mp h1, peer_peer])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv0 (c : Dev nD) :
    tallyOn (recvCell 0 c) (launchCredit (Pipeline.owing O₀) 0 (recvCell 0 c)) = (tallyAt (recvCell 0 c) () N : CellTallies nD τ sig Unit) := by
  unfold tallyAt; refine congrArg _ (Finsupp.ext fun u => ?_); cases u
  rw [Pipeline.launchCredit_owing, Finsupp.single_eq_same, Finset.sum_congr rfl fun d _ => owed_recv0 d c,
    Finset.sum_ite_eq' Finset.univ (peer c) fun _ => N, if_pos (Finset.mem_univ _)]

omit [FloatOps F] in
theorem launch_recv1 (c : Dev nD) :
    tallyOn (recvCell 1 c) (launchCredit (Pipeline.owing O₀) 0 (recvCell 1 c)) = (tallyAt (recvCell 1 c) () N : CellTallies nD τ sig Unit) := by
  unfold tallyAt; refine congrArg _ (Finsupp.ext fun u => ?_); cases u
  rw [Pipeline.launchCredit_owing, Finsupp.single_eq_same, Finset.sum_congr rfl fun d _ => owed_recv1 d c,
    Finset.sum_ite_eq' Finset.univ (peer c) fun _ => N, if_pos (Finset.mem_univ _)]

omit [FloatOps F] in
/-- A device's launch credit: its barrier's unit and its two receive cells' credit. -/
theorem creds (c : Dev nD) :
    (Pipeline.launchCred O₀ c : sProp 𝕄)
      ⊢ iprop(cred (tallyAt (barCell c) () 1) ∗ cred (tallyAt (recvCell 0 c) () N) ∗ cred (tallyAt (recvCell 1 c) () N)) := by
  unfold Pipeline.launchCred
  rw [bigSep_univ_at _ (SemLoc.reg barS), launch_bar]
  refine sep_mono_right ?_
  rw [bigSep_erase (i := (SemLoc.dma (rS 0) : SemLoc sig)) (Finset.mem_erase.mpr ⟨rS_ne_bar 0, Finset.mem_univ _⟩), launch_recv0]
  refine sep_mono_right ?_
  rw [← launch_recv1]
  exact bigSep_elim (Finset.mem_erase.mpr ⟨rS1_ne_rS0, Finset.mem_erase.mpr ⟨rS_ne_bar 1, Finset.mem_univ _⟩⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-- Before the point: what the body starts from, and the landing buffer whole at some contents. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [scrPts_eq]; iexact Hr

/-- After the point: the four own semaphores back at zero, the landing buffer back whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, HzS0, HzS1, HzR0, HzR1⟩
  isplitr; · iempintro
  isplitl [HzS0 HzS1 HzR0 HzR1]
  · isplitl [HzS0]; · iexact HzS0
    isplitl [HzS1]; · iexact HzS1
    isplitl [HzR0] <;> iassumption
  iexists f; rw [← scrPts_eq]; iexact Hr

/-- The pipeline's own waits are on staging cells, below everything a device may owe. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- Each window's array after the last point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body at its one point: every weakly fair execution of the program — the partners handshaking on the barrier
    semaphore, then exchanging their two chunks — terminates, and every final state has each device's two arrays at
    the pipeline's final contents. -/
theorem run_main (hbody : ∀ c, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

/-- The result array after the run is what the body left in the result window's staging buffer: the window's one block is
    the whole array, written back at the one point. -/
theorem finalA_out (c : Dev nD) : finalA m ρ c (1 : Fin 2) = outAt m c := by
  unfold finalA
  rw [show cfg0.N = (t₀ : Fin cfg0.N).val + 1 from rfl, (dats m ρ 0 c).arrAt_succ (1 : Fin 2) t₀, if_pos (flush0_1 _)]
  exact Memref.write_access_unit_zero_univ (Elt F) main_v1 (funext fun a => Nat.zero_mul _) _ _ _

/-- info: 'Cert.Kernel.Xchg.run_main' depends on axioms: [propext, Classical.choice, Quot.sound] -/
#guard_msgs in #print axioms run_main

end Cert.Kernel.Xchg

end
-- ==== Proof.lean ====
/-
  The claim of this certificate: a reduce-scatter on a two-by-two mesh of four devices against the sum over the
  first axis on one device.

  Device `c` holds block `c % 2` of `x : [2, 256, 512]` and must end with column half `c % 2` of `x[0] + x[1]`. The
  kernel stores the device's own columns of that half, exchanges the other half with the device's partner on the
  second mesh axis in two chunks of rows, and adds what lands (Proof/Sched.lean: the protocol; Proof/Body.lean: one
  device's body; Proof/Launch.lean: all four devices run to the end with every array named). Both printed programs
  run by the same argument: the word-level one at the bit-level floats, the idealized one at the extended reals.
  Over the extended reals the device's result at `(r, l)` is `x_c[0, r, 256 (c % 2) + l] + x_partner[0, r, 256 (c % 2) + l]`
  (Proof/Value.lean), which is that column half of the reference's sum, the two blocks being the two slices of `x` in
  one order or the other and addition commuting (Proof/RefSide.lean). The ideal pass rewrote nothing, so the
  idealization is the program's own text.
-/
import proofs.«900307_g7700000000000308_dist_rs_v7x_xy2x2_y_m256_n256_f32_1_alg».proof.Defs
import proofs.«900307_g7700000000000308_dist_rs_v7x_xy2x2_y_m256_n256_f32_1_alg».proof.Proof.Gen.Kernel
import proofs.«900307_g7700000000000308_dist_rs_v7x_xy2x2_y_m256_n256_f32_1_alg».proof.Proof.Gen.Kernel.Skeleton
import proofs.«900307_g7700000000000308_dist_rs_v7x_xy2x2_y_m256_n256_f32_1_alg».proof.Proof.Gen.Kernel.Launch
import proofs.«900307_g7700000000000308_dist_rs_v7x_xy2x2_y_m256_n256_f32_1_alg».proof.Proof.Gen.Kernel.Points
import proofs.«900307_g7700000000000308_dist_rs_v7x_xy2x2_y_m256_n256_f32_1_alg».proof.Proof.Gen.Kernel.Frame
import proofs.«900307_g7700000000000308_dist_rs_v7x_xy2x2_y_m256_n256_f32_1_alg».proof.Proof.Gen.KernelIdeal
import proofs.«900307_g7700000000000308_dist_rs_v7x_xy2x2_y_m256_n256_f32_1_alg».proof.Proof.Gen.KernelIdeal.Skeleton
import proofs.«900307_g7700000000000308_dist_rs_v7x_xy2x2_y_m256_n256_f32_1_alg».proof.Proof.Gen.KernelIdeal.Launch
import proofs.«900307_g7700000000000308_dist_rs_v7x_xy2x2_y_m256_n256_f32_1_alg».proof.Proof.Gen.KernelIdeal.Points
import proofs.«900307_g7700000000000308_dist_rs_v7x_xy2x2_y_m256_n256_f32_1_alg».proof.Proof.Gen.KernelIdeal.Frame
import proofs.«900307_g7700000000000308_dist_rs_v7x_xy2x2_y_m256_n256_f32_1_alg».proof.Proof.Gen.ReferenceIdeal
import proofs.«900307_g7700000000000308_dist_rs_v7x_xy2x2_y_m256_n256_f32_1_alg».proof.Proof.Gen.ReferenceIdeal.Run
import proofs.«900307_g7700000000000308_dist_rs_v7x_xy2x2_y_m256_n256_f32_1_alg».proof.Proof.Gen.ReferenceIdeal.Read
import proofs.«900307_g7700000000000308_dist_rs_v7x_xy2x2_y_m256_n256_f32_1_alg».proof.Proof.Gen.Pre_finite_inputs_Kernel
import proofs.«900307_g7700000000000308_dist_rs_v7x_xy2x2_y_m256_n256_f32_1_alg».proof.Proof.Gen.Pre_finite_inputs_ReferenceIdeal
import proofs.«900307_g7700000000000308_dist_rs_v7x_xy2x2_y_m256_n256_f32_1_alg».proof.Proof.RefSide
import proofs.«900307_g7700000000000308_dist_rs_v7x_xy2x2_y_m256_n256_f32_1_alg».proof.Proof.Body
import proofs.«900307_g7700000000000308_dist_rs_v7x_xy2x2_y_m256_n256_f32_1_alg».proof.Proof.Launch
import proofs.«900307_g7700000000000308_dist_rs_v7x_xy2x2_y_m256_n256_f32_1_alg».proof.Proof.Value
import proofs.«900307_g7700000000000308_dist_rs_v7x_xy2x2_y_m256_n256_f32_1_alg».proof.Proof.BodyK
import proofs.«900307_g7700000000000308_dist_rs_v7x_xy2x2_y_m256_n256_f32_1_alg».proof.Proof.LaunchK
import Idealize.ShloMosaic.Adequacy
import Idealize.ShloMosaic.Init

noncomputable section

namespace Cert.Proof

open Idealize.ShloMosaic Idealize.SL.Sem

/-- The word-level kernel runs to the end on all four devices and leaves every device's block as it was. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono
    (fun _ h c => (h c (0 : Fin 2)).trans (Cert.Kernel.Xchg.finalA_x m ρ c))
    (Cert.Kernel.Xchg.run_main m ρ (Cert.Kernel.Xchg.body_obligation m ρ))

/-- So does the idealized kernel. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono
    (fun _ h c => (h c (0 : Fin 2)).trans (Cert.KernelIdeal.Xchg.finalA_x m ρ c))
    (Cert.KernelIdeal.Xchg.run_main m ρ (Cert.KernelIdeal.Xchg.body_obligation m ρ))

/-- Over the extended reals every device ends with its column half of the reference's sum: the kernel's run names each
    result array (`outAt`), which is that half (`out_block`); the reference's run names the sum. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' _ hagree
  refine ⟨_, ?_, Cert.RS.ref_run m' ρ'⟩
  refine (θ_run (Cert.KernelIdeal.defs (F := Ideal)) _ _).mono (fun _ h c => ⟨?_, (h c (0 : Fin 2)).trans (Cert.KernelIdeal.Xchg.finalA_x m ρ c)⟩)
    (Cert.KernelIdeal.Xchg.run_main m ρ (Cert.KernelIdeal.Xchg.body_obligation m ρ))
  exact ((h c (1 : Fin 2)).trans (Cert.KernelIdeal.Xchg.finalA_out m ρ c)).trans (Cert.KernelIdeal.Xchg.out_block m m' hagree c)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RS.frame_ref, trivial, algebraic⟩

end Cert.Proof

end
